-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000 : Shape := ⟨1, ![10000]⟩
abbrev S131000 : Shape := ⟨1, ![131000]⟩
abbrev S121000 : Shape := ⟨1, ![121000]⟩
abbrev S3840000 : Shape := ⟨1, ![3840000]⟩
abbrev S128000 : Shape := ⟨1, ![128000]⟩
abbrev S4000000 : Shape := ⟨1, ![4000000]⟩
abbrev S_ : Shape := ⟨0, ![]⟩

class Facts : Prop where
  bcast_S_S10000 : S_.BroadcastsInDim S10000 (![] : Fin 0 → Fin S10000.rank)
  reducesTo_S10000_S_d0 : S10000.ReducesTo [0] S_
  h_S_ : 0 < S_.numel
  bcast_S_S131000 : S_.BroadcastsInDim S131000 (![] : Fin 0 → Fin S131000.rank)
  reducesTo_S131000_S_d0 : S131000.ReducesTo [0] S_
  bcast_S_S121000 : S_.BroadcastsInDim S121000 (![] : Fin 0 → Fin S121000.rank)
  reducesTo_S121000_S_d0 : S121000.ReducesTo [0] S_
  bcast_S_S3840000 : S_.BroadcastsInDim S3840000 (![] : Fin 0 → Fin S3840000.rank)
  reducesTo_S3840000_S_d0 : S3840000.ReducesTo [0] S_
  bcast_S_S128000 : S_.BroadcastsInDim S128000 (![] : Fin 0 → Fin S128000.rank)
  reducesTo_S128000_S_d0 : S128000.ReducesTo [0] S_
  bcast_S_S4000000 : S_.BroadcastsInDim S4000000 (![] : Fin 0 → Fin S4000000.rank)
  reducesTo_S4000000_S_d0 : S4000000.ReducesTo [0] S_

variable [Facts]

def fn_part2 {F : FTy → Type} [FloatOps F] (main_arg17 : FVec F S128000 .f32) (main_arg20 : FVec F S4000000 .f32) (main_v33 : IVec S_ 1) : IVec S_ 1 :=
  let main_v34 : FVec F S128000 .f32 := Host.absf main_arg17
  let main_cst_12 : FVec F S_ .f32 := constant S_ .f32 0x7F800000#32
  let main_v35 : FVec F S128000 .f32 := broadcastInDim S128000 ![] bcast_S_S128000 main_cst_12
  let main_v36 : IVec S128000 1 := cmpf .olt main_v34 main_v35
  let main_c_13 : IVec S_ 1 := constantI S_ 1 1#1
  let main_v37 : IVec S_ 1 := (fun x v => Host.reduce IntOp.andi x v reducesTo_S128000_S_d0 h_S_) main_v36 main_c_13
  let main_v38 : IVec S_ 1 := andi main_v33 main_v37
  let main_v39 : FVec F S4000000 .f32 := Host.absf main_arg20
  let main_cst_14 : FVec F S_ .f32 := constant S_ .f32 0x7F800000#32
  let main_v40 : FVec F S4000000 .f32 := broadcastInDim S4000000 ![] bcast_S_S4000000 main_cst_14
  let main_v41 : IVec S4000000 1 := cmpf .olt main_v39 main_v40
  let main_c_15 : IVec S_ 1 := constantI S_ 1 1#1
  let main_v42 : IVec S_ 1 := (fun x v => Host.reduce IntOp.andi x v reducesTo_S4000000_S_d0 h_S_) main_v41 main_c_15
  let main_v43 : IVec S_ 1 := andi main_v38 main_v42
  main_v43

def fn_part1 {F : FTy → Type} [FloatOps F] (main_arg8 : FVec F S3840000 .f32) (main_arg11 : FVec F S3840000 .f32) (main_arg14 : FVec F S3840000 .f32) (main_arg17 : FVec F S128000 .f32) (main_arg20 : FVec F S4000000 .f32) (main_v13 : IVec S_ 1) (main_v16 : IVec S3840000 1) : IVec S_ 1 :=
  let main_c_5 : IVec S_ 1 := constantI S_ 1 1#1
  let main_v17 : IVec S_ 1 := (fun x v => Host.reduce IntOp.andi x v reducesTo_S3840000_S_d0 h_S_) main_v16 main_c_5
  let main_v18 : IVec S_ 1 := andi main_v13 main_v17
  let main_v19 : FVec F S3840000 .f32 := Host.absf main_arg8
  let main_cst_6 : FVec F S_ .f32 := constant S_ .f32 0x7F800000#32
  let main_v20 : FVec F S3840000 .f32 := broadcastInDim S3840000 ![] bcast_S_S3840000 main_cst_6
  let main_v21 : IVec S3840000 1 := cmpf .olt main_v19 main_v20
  let main_c_7 : IVec S_ 1 := constantI S_ 1 1#1
  let main_v22 : IVec S_ 1 := (fun x v => Host.reduce IntOp.andi x v reducesTo_S3840000_S_d0 h_S_) main_v21 main_c_7
  let main_v23 : IVec S_ 1 := andi main_v18 main_v22
  let main_v24 : FVec F S3840000 .f32 := Host.absf main_arg11
  let main_cst_8 : FVec F S_ .f32 := constant S_ .f32 0x7F800000#32
  let main_v25 : FVec F S3840000 .f32 := broadcastInDim S3840000 ![] bcast_S_S3840000 main_cst_8
  let main_v26 : IVec S3840000 1 := cmpf .olt main_v24 main_v25
  let main_c_9 : IVec S_ 1 := constantI S_ 1 1#1
  let main_v27 : IVec S_ 1 := (fun x v => Host.reduce IntOp.andi x v reducesTo_S3840000_S_d0 h_S_) main_v26 main_c_9
  let main_v28 : IVec S_ 1 := andi main_v23 main_v27
  let main_v29 : FVec F S3840000 .f32 := Host.absf main_arg14
  let main_cst_10 : FVec F S_ .f32 := constant S_ .f32 0x7F800000#32
  let main_v30 : FVec F S3840000 .f32 := broadcastInDim S3840000 ![] bcast_S_S3840000 main_cst_10
  let main_v31 : IVec S3840000 1 := cmpf .olt main_v29 main_v30
  let main_c_11 : IVec S_ 1 := constantI S_ 1 1#1
  let main_v32 : IVec S_ 1 := (fun x v => Host.reduce IntOp.andi x v reducesTo_S3840000_S_d0 h_S_) main_v31 main_c_11
  let main_v33 : IVec S_ 1 := andi main_v28 main_v32
  fn_part2 (F := F) main_arg17 main_arg20 main_v33

def fn {F : FTy → Type} [FloatOps F] (main_arg0 : FVec F S10000 .f32) (main_arg1 : FVec F S131000 .f32) (main_arg2 : FVec F S121000 .f32) (main_arg3 : IVec S3840000 32) (main_arg4 : IVec S3840000 32) (main_arg5 : FVec F S3840000 .f32) (main_arg6 : IVec S3840000 32) (main_arg7 : IVec S3840000 32) (main_arg8 : FVec F S3840000 .f32) (main_arg9 : IVec S3840000 32) (main_arg10 : IVec S3840000 32) (main_arg11 : FVec F S3840000 .f32) (main_arg12 : IVec S3840000 32) (main_arg13 : IVec S3840000 32) (main_arg14 : FVec F S3840000 .f32) (main_arg15 : IVec S128000 32) (main_arg16 : IVec S128000 32) (main_arg17 : FVec F S128000 .f32) (main_arg18 : IVec S4000000 32) (main_arg19 : IVec S4000000 32) (main_arg20 : FVec F S4000000 .f32) : IVec S_ 1 :=
  let main_v0 : FVec F S10000 .f32 := Host.absf main_arg0
  let main_cst : FVec F S_ .f32 := constant S_ .f32 0x7F800000#32
  let main_v1 : FVec F S10000 .f32 := broadcastInDim S10000 ![] bcast_S_S10000 main_cst
  let main_v2 : IVec S10000 1 := cmpf .olt main_v0 main_v1
  let main_c : IVec S_ 1 := constantI S_ 1 1#1
  let main_v3 : IVec S_ 1 := (fun x v => Host.reduce IntOp.andi x v reducesTo_S10000_S_d0 h_S_) main_v2 main_c
  let main_v4 : FVec F S131000 .f32 := Host.absf main_arg1
  let main_cst_0 : FVec F S_ .f32 := constant S_ .f32 0x7F800000#32
  let main_v5 : FVec F S131000 .f32 := broadcastInDim S131000 ![] bcast_S_S131000 main_cst_0
  let main_v6 : IVec S131000 1 := cmpf .olt main_v4 main_v5
  let main_c_1 : IVec S_ 1 := constantI S_ 1 1#1
  let main_v7 : IVec S_ 1 := (fun x v => Host.reduce IntOp.andi x v reducesTo_S131000_S_d0 h_S_) main_v6 main_c_1
  let main_v8 : IVec S_ 1 := andi main_v3 main_v7
  let main_v9 : FVec F S121000 .f32 := Host.absf main_arg2
  let main_cst_2 : FVec F S_ .f32 := constant S_ .f32 0x7F800000#32
  let main_v10 : FVec F S121000 .f32 := broadcastInDim S121000 ![] bcast_S_S121000 main_cst_2
  let main_v11 : IVec S121000 1 := cmpf .olt main_v9 main_v10
  let main_c_3 : IVec S_ 1 := constantI S_ 1 1#1
  let main_v12 : IVec S_ 1 := (fun x v => Host.reduce IntOp.andi x v reducesTo_S121000_S_d0 h_S_) main_v11 main_c_3
  let main_v13 : IVec S_ 1 := andi main_v8 main_v12
  let main_v14 : FVec F S3840000 .f32 := Host.absf main_arg5
  let main_cst_4 : FVec F S_ .f32 := constant S_ .f32 0x7F800000#32
  let main_v15 : FVec F S3840000 .f32 := broadcastInDim S3840000 ![] bcast_S_S3840000 main_cst_4
  let main_v16 : IVec S3840000 1 := cmpf .olt main_v14 main_v15
  fn_part1 (F := F) main_arg8 main_arg11 main_arg14 main_arg17 main_arg20 main_v13 main_v16
-- ==== Kernel.lean ====
abbrev S10000 : Shape := ⟨1, ![10000]⟩
abbrev S131000 : Shape := ⟨1, ![131000]⟩
abbrev S121000 : Shape := ⟨1, ![121000]⟩
abbrev S3840000 : Shape := ⟨1, ![3840000]⟩
abbrev S128000 : Shape := ⟨1, ![128000]⟩
abbrev S4000000 : Shape := ⟨1, ![4000000]⟩
abbrev S_ : Shape := ⟨0, ![]⟩
abbrev S4000000x1 : Shape := ⟨2, ![4000000, 1]⟩
abbrev S96000 : Shape := ⟨1, ![96000]⟩
abbrev S4096000 : Shape := ⟨1, ![4096000]⟩
abbrev S512000 : Shape := ⟨1, ![512000]⟩
abbrev S1 : Shape := ⟨1, ![1]⟩
abbrev S3840000x1 : Shape := ⟨2, ![3840000, 1]⟩
abbrev S384000 : Shape := ⟨1, ![384000]⟩
abbrev S30000 : Shape := ⟨1, ![30000]⟩
abbrev S128000x1 : Shape := ⟨2, ![128000, 1]⟩
abbrev S25600 : Shape := ⟨1, ![25600]⟩
abbrev S1000 : Shape := ⟨1, ![1000]⟩

abbrev nBuf : Space → Nat
  | .hbm => 148
  | .vmem => 56
  | .smem => 0
  | _ => 0

abbrev hbmTy0_0 (i : Nat) : BufTy := match i % 128 with
  | 0 => ⟨S10000, .f32⟩
  | 1 => ⟨S131000, .f32⟩
  | 2 => ⟨S121000, .f32⟩
  | 3 => ⟨S3840000, .i32⟩
  | 4 => ⟨S3840000, .i32⟩
  | 5 => ⟨S3840000, .f32⟩
  | 6 => ⟨S3840000, .i32⟩
  | 7 => ⟨S3840000, .i32⟩
  | 8 => ⟨S3840000, .f32⟩
  | 9 => ⟨S3840000, .i32⟩
  | 10 => ⟨S3840000, .i32⟩
  | 11 => ⟨S3840000, .f32⟩
  | 12 => ⟨S3840000, .i32⟩
  | 13 => ⟨S3840000, .i32⟩
  | 14 => ⟨S3840000, .f32⟩
  | 15 => ⟨S128000, .i32⟩
  | 16 => ⟨S128000, .i32⟩
  | 17 => ⟨S128000, .f32⟩
  | 18 => ⟨S4000000, .i32⟩
  | 19 => ⟨S4000000, .i32⟩
  | 20 => ⟨S4000000, .f32⟩
  | 21 => ⟨S_, .i32⟩
  | 22 => ⟨S4000000, .i32⟩
  | 23 => ⟨S4000000, .i1⟩
  | 24 => ⟨S_, .i32⟩
  | 25 => ⟨S4000000, .i32⟩
  | 26 => ⟨S4000000, .i32⟩
  | 27 => ⟨S4000000, .i32⟩
  | 28 => ⟨S4000000x1, .i32⟩
  | 29 => ⟨S4000000, .f32⟩
  | 30 => ⟨S_, .f32⟩
  | 31 => ⟨S96000, .f32⟩
  | 32 => ⟨S4096000, .f32⟩
  | 33 => ⟨S_, .f32⟩
  | 34 => ⟨S96000, .f32⟩
  | 35 => ⟨S4096000, .f32⟩
  | 36 => ⟨S4096000, .f32⟩
  | 37 => ⟨S4000000, .f32⟩
  | 38 => ⟨S_, .f32⟩
  | 39 => ⟨S121000, .f32⟩
  | 40 => ⟨S4000000x1, .i32⟩
  | 41 => ⟨S121000, .f32⟩
  | 42 => ⟨S_, .f32⟩
  | 43 => ⟨S131000, .f32⟩
  | 44 => ⟨S_, .i32⟩
  | 45 => ⟨S1, .i32⟩
  | 46 => ⟨S131000, .f32⟩
  | 47 => ⟨S_, .i32⟩
  | 48 => ⟨S3840000, .i32⟩
  | 49 => ⟨S3840000, .i1⟩
  | 50 => ⟨S_, .i32⟩
  | 51 => ⟨S3840000, .i32⟩
  | 52 => ⟨S3840000, .i32⟩
  | 53 => ⟨S3840000, .i32⟩
  | 54 => ⟨S3840000x1, .i32⟩
  | 55 => ⟨S3840000, .f32⟩
  | 56 => ⟨S3840000, .f32⟩
  | 57 => ⟨S_, .f32⟩
  | 58 => ⟨S30000, .f32⟩
  | 59 => ⟨S3840000x1, .i32⟩
  | 60 => ⟨S30000, .f32⟩
  | 61 => ⟨S30000, .f32⟩
  | 62 => ⟨S30000, .f32⟩
  | 63 => ⟨S30000, .f32⟩
  | 64 => ⟨S_, .i32⟩
  | 65 => ⟨S1, .i32⟩
  | 66 => ⟨S131000, .f32⟩
  | 67 => ⟨S_, .i32⟩
  | 68 => ⟨S3840000, .i32⟩
  | 69 => ⟨S3840000, .i1⟩
  | 70 => ⟨S_, .i32⟩
  | 71 => ⟨S3840000, .i32⟩
  | 72 => ⟨S3840000, .i32⟩
  | 73 => ⟨S3840000, .i32⟩
  | 74 => ⟨S3840000x1, .i32⟩
  | 75 => ⟨S3840000, .f32⟩
  | 76 => ⟨S3840000, .f32⟩
  | 77 => ⟨S_, .f32⟩
  | 78 => ⟨S30000, .f32⟩
  | 79 => ⟨S3840000x1, .i32⟩
  | 80 => ⟨S30000, .f32⟩
  | 81 => ⟨S30000, .f32⟩
  | 82 => ⟨S30000, .f32⟩
  | 83 => ⟨S30000, .f32⟩
  | 84 => ⟨S_, .i32⟩
  | 85 => ⟨S1, .i32⟩
  | 86 => ⟨S131000, .f32⟩
  | 87 => ⟨S_, .i32⟩
  | 88 => ⟨S3840000, .i32⟩
  | 89 => ⟨S3840000, .i1⟩
  | 90 => ⟨S_, .i32⟩
  | 91 => ⟨S3840000, .i32⟩
  | 92 => ⟨S3840000, .i32⟩
  | 93 => ⟨S3840000, .i32⟩
  | 94 => ⟨S3840000x1, .i32⟩
  | 95 => ⟨S3840000, .f32⟩
  | 96 => ⟨S3840000, .f32⟩
  | 97 => ⟨S_, .f32⟩
  | 98 => ⟨S30000, .f32⟩
  | 99 => ⟨S3840000x1, .i32⟩
  | 100 => ⟨S30000, .f32⟩
  | 101 => ⟨S30000, .f32⟩
  | 102 => ⟨S30000, .f32⟩
  | 103 => ⟨S30000, .f32⟩
  | 104 => ⟨S_, .i32⟩
  | 105 => ⟨S1, .i32⟩
  | 106 => ⟨S131000, .f32⟩
  | 107 => ⟨S_, .i32⟩
  | 108 => ⟨S3840000, .i32⟩
  | 109 => ⟨S3840000, .i1⟩
  | 110 => ⟨S_, .i32⟩
  | 111 => ⟨S3840000, .i32⟩
  | 112 => ⟨S3840000, .i32⟩
  | 113 => ⟨S3840000, .i32⟩
  | 114 => ⟨S3840000x1, .i32⟩
  | 115 => ⟨S3840000, .f32⟩
  | 116 => ⟨S3840000, .f32⟩
  | 117 => ⟨S_, .f32⟩
  | 118 => ⟨S30000, .f32⟩
  | 119 => ⟨S3840000x1, .i32⟩
  | 120 => ⟨S30000, .f32⟩
  | 121 => ⟨S30000, .f32⟩
  | 122 => ⟨S30000, .f32⟩
  | 123 => ⟨S30000, .f32⟩
  | 124 => ⟨S_, .i32⟩
  | 125 => ⟨S1, .i32⟩
  | 126 => ⟨S131000, .f32⟩
  | 127 => ⟨S_, .i32⟩
  | _ => ⟨S10000, .f32⟩

abbrev hbmTy0_1 (i : Nat) : BufTy := match i % 128 with
  | 0 => ⟨S128000, .i32⟩
  | 1 => ⟨S128000, .i1⟩
  | 2 => ⟨S_, .i32⟩
  | 3 => ⟨S128000, .i32⟩
  | 4 => ⟨S128000, .i32⟩
  | 5 => ⟨S128000, .i32⟩
  | 6 => ⟨S128000x1, .i32⟩
  | 7 => ⟨S128000, .f32⟩
  | 8 => ⟨S128000, .f32⟩
  | 9 => ⟨S_, .f32⟩
  | 10 => ⟨S1000, .f32⟩
  | 11 => ⟨S128000x1, .i32⟩
  | 12 => ⟨S1000, .f32⟩
  | 13 => ⟨S1000, .f32⟩
  | 14 => ⟨S1000, .f32⟩
  | 15 => ⟨S1000, .f32⟩
  | 16 => ⟨S_, .i32⟩
  | 17 => ⟨S1, .i32⟩
  | 18 => ⟨S131000, .f32⟩
  | 19 => ⟨S1000, .f32⟩
  | _ => ⟨S10000, .f32⟩

abbrev hbmTy (i : Nat) : BufTy := match i / 128 with
  | 0 => hbmTy0_0 i
  | 1 => hbmTy0_1 i
  | _ => ⟨S10000, .f32⟩

abbrev bufTy : (tb : Table) → Fin (tcTables nBuf tb) → BufTy
  | .hbm, ⟨i, _⟩ => hbmTy i
  | .local _ .vmem, ⟨0, _⟩ => ⟨S512000, .f32⟩
  | .local _ .vmem, ⟨1, _⟩ => ⟨S512000, .f32⟩
  | .local _ .vmem, ⟨2, _⟩ => ⟨S512000, .f32⟩
  | .local _ .vmem, ⟨3, _⟩ => ⟨S512000, .f32⟩
  | .local _ .vmem, ⟨4, _⟩ => ⟨S512000, .f32⟩
  | .local _ .vmem, ⟨5, _⟩ => ⟨S512000, .f32⟩
  | .local _ .vmem, ⟨6, _⟩ => ⟨S384000, .f32⟩
  | .local _ .vmem, ⟨7, _⟩ => ⟨S384000, .f32⟩
  | .local _ .vmem, ⟨8, _⟩ => ⟨S384000, .f32⟩
  | .local _ .vmem, ⟨9, _⟩ => ⟨S384000, .f32⟩
  | .local _ .vmem, ⟨10, _⟩ => ⟨S384000, .f32⟩
  | .local _ .vmem, ⟨11, _⟩ => ⟨S384000, .f32⟩
  | .local _ .vmem, ⟨12, _⟩ => ⟨S30000, .f32⟩
  | .local _ .vmem, ⟨13, _⟩ => ⟨S30000, .f32⟩
  | .local _ .vmem, ⟨14, _⟩ => ⟨S30000, .f32⟩
  | .local _ .vmem, ⟨15, _⟩ => ⟨S30000, .f32⟩
  | .local _ .vmem, ⟨16, _⟩ => ⟨S384000, .f32⟩
  | .local _ .vmem, ⟨17, _⟩ => ⟨S384000, .f32⟩
  | .local _ .vmem, ⟨18, _⟩ => ⟨S384000, .f32⟩
  | .local _ .vmem, ⟨19, _⟩ => ⟨S384000, .f32⟩
  | .local _ .vmem, ⟨20, _⟩ => ⟨S384000, .f32⟩
  | .local _ .vmem, ⟨21, _⟩ => ⟨S384000, .f32⟩
  | .local _ .vmem, ⟨22, _⟩ => ⟨S30000, .f32⟩
  | .local _ .vmem, ⟨23, _⟩ => ⟨S30000, .f32⟩
  | .local _ .vmem, ⟨24, _⟩ => ⟨S30000, .f32⟩
  | .local _ .vmem, ⟨25, _⟩ => ⟨S30000, .f32⟩
  | .local _ .vmem, ⟨26, _⟩ => ⟨S384000, .f32⟩
  | .local _ .vmem, ⟨27, _⟩ => ⟨S384000, .f32⟩
  | .local _ .vmem, ⟨28, _⟩ => ⟨S384000, .f32⟩
  | .local _ .vmem, ⟨29, _⟩ => ⟨S384000, .f32⟩
  | .local _ .vmem, ⟨30, _⟩ => ⟨S384000, .f32⟩
  | .local _ .vmem, ⟨31, _⟩ => ⟨S384000, .f32⟩
  | .local _ .vmem, ⟨32, _⟩ => ⟨S30000, .f32⟩
  | .local _ .vmem, ⟨33, _⟩ => ⟨S30000, .f32⟩
  | .local _ .vmem, ⟨34, _⟩ => ⟨S30000, .f32⟩
  | .local _ .vmem, ⟨35, _⟩ => ⟨S30000, .f32⟩
  | .local _ .vmem, ⟨36, _⟩ => ⟨S384000, .f32⟩
  | .local _ .vmem, ⟨37, _⟩ => ⟨S384000, .f32⟩
  | .local _ .vmem, ⟨38, _⟩ => ⟨S384000, .f32⟩
  | .local _ .vmem, ⟨39, _⟩ => ⟨S384000, .f32⟩
  | .local _ .vmem, ⟨40, _⟩ => ⟨S384000, .f32⟩
  | .local _ .vmem, ⟨41, _⟩ => ⟨S384000, .f32⟩
  | .local _ .vmem, ⟨42, _⟩ => ⟨S30000, .f32⟩
  | .local _ .vmem, ⟨43, _⟩ => ⟨S30000, .f32⟩
  | .local _ .vmem, ⟨44, _⟩ => ⟨S30000, .f32⟩
  | .local _ .vmem, ⟨45, _⟩ => ⟨S30000, .f32⟩
  | .local _ .vmem, ⟨46, _⟩ => ⟨S25600, .f32⟩
  | .local _ .vmem, ⟨47, _⟩ => ⟨S25600, .f32⟩
  | .local _ .vmem, ⟨48, _⟩ => ⟨S25600, .f32⟩
  | .local _ .vmem, ⟨49, _⟩ => ⟨S25600, .f32⟩
  | .local _ .vmem, ⟨50, _⟩ => ⟨S25600, .f32⟩
  | .local _ .vmem, ⟨51, _⟩ => ⟨S25600, .f32⟩
  | .local _ .vmem, ⟨52, _⟩ => ⟨S1000, .f32⟩
  | .local _ .vmem, ⟨53, _⟩ => ⟨S1000, .f32⟩
  | .local _ .vmem, ⟨54, _⟩ => ⟨S1000, .f32⟩
  | .local _ .vmem, ⟨55, _⟩ => ⟨S1000, .f32⟩
  | _, _ => ⟨S10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_3 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_v18 : Ref sig .tc := ⟨.hbm, 46, rfl⟩
abbrev main_c_5 : Ref sig .tc := ⟨.hbm, 47, rfl⟩
abbrev main_v19 : Ref sig .tc := ⟨.hbm, 48, rfl⟩
abbrev main_v20 : Ref sig .tc := ⟨.hbm, 49, rfl⟩
abbrev main_c_6 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_7 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_8 : Ref sig .tc := ⟨.hbm, 64, rfl⟩
abbrev main_v33 : Ref sig .tc := ⟨.hbm, 65, rfl⟩
abbrev main_v34 : Ref sig .tc := ⟨.hbm, 66, rfl⟩
abbrev main_c_9 : Ref sig .tc := ⟨.hbm, 67, rfl⟩
abbrev main_v35 : Ref sig .tc := ⟨.hbm, 68, rfl⟩
abbrev main_v36 : Ref sig .tc := ⟨.hbm, 69, rfl⟩
abbrev main_c_10 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_11 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_12 : Ref sig .tc := ⟨.hbm, 84, rfl⟩
abbrev main_v49 : Ref sig .tc := ⟨.hbm, 85, rfl⟩
abbrev main_v50 : Ref sig .tc := ⟨.hbm, 86, rfl⟩
abbrev main_c_13 : Ref sig .tc := ⟨.hbm, 87, rfl⟩
abbrev main_v51 : Ref sig .tc := ⟨.hbm, 88, rfl⟩
abbrev main_v52 : Ref sig .tc := ⟨.hbm, 89, rfl⟩
abbrev main_c_14 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_15 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_16 : Ref sig .tc := ⟨.hbm, 104, rfl⟩
abbrev main_v65 : Ref sig .tc := ⟨.hbm, 105, rfl⟩
abbrev main_v66 : Ref sig .tc := ⟨.hbm, 106, rfl⟩
abbrev main_c_17 : Ref sig .tc := ⟨.hbm, 107, rfl⟩
abbrev main_v67 : Ref sig .tc := ⟨.hbm, 108, rfl⟩
abbrev main_v68 : Ref sig .tc := ⟨.hbm, 109, rfl⟩
abbrev main_c_18 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_19 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_20 : Ref sig .tc := ⟨.hbm, 124, rfl⟩
abbrev main_v81 : Ref sig .tc := ⟨.hbm, 125, rfl⟩
abbrev main_v82 : Ref sig .tc := ⟨.hbm, 126, rfl⟩
abbrev main_c_21 : Ref sig .tc := ⟨.hbm, 127, rfl⟩
abbrev main_v83 : Ref sig .tc := ⟨.hbm, 128, rfl⟩
abbrev main_v84 : Ref sig .tc := ⟨.hbm, 129, rfl⟩
abbrev main_c_22 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_23 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_c_24 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg3_0 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg1_1 : Ref sig .tc := ⟨.vmem, 39, rfl⟩
abbrev cc7_stg2_0 : Ref sig .tc := ⟨.vmem, 40, rfl⟩
abbrev cc7_stg2_1 : Ref sig .tc := ⟨.vmem, 41, rfl⟩
abbrev cc8_stg0_0 : Ref sig .tc := ⟨.vmem, 42, rfl⟩
abbrev cc8_stg1_0 : Ref sig .tc := ⟨.vmem, 43, rfl⟩
abbrev cc8_stg2_0 : Ref sig .tc := ⟨.vmem, 44, rfl⟩
abbrev cc8_stg3_0 : Ref sig .tc := ⟨.vmem, 45, rfl⟩
abbrev cc9_stg0_0 : Ref sig .tc := ⟨.vmem, 46, rfl⟩
abbrev cc9_stg0_1 : Ref sig .tc := ⟨.vmem, 47, rfl⟩
abbrev cc9_stg1_0 : Ref sig .tc := ⟨.vmem, 48, rfl⟩
abbrev cc9_stg1_1 : Ref sig .tc := ⟨.vmem, 49, rfl⟩
abbrev cc9_stg2_0 : Ref sig .tc := ⟨.vmem, 50, rfl⟩
abbrev cc9_stg2_1 : Ref sig .tc := ⟨.vmem, 51, rfl⟩
abbrev cc10_stg0_0 : Ref sig .tc := ⟨.vmem, 52, rfl⟩
abbrev cc10_stg1_0 : Ref sig .tc := ⟨.vmem, 53, rfl⟩
abbrev cc10_stg2_0 : Ref sig .tc := ⟨.vmem, 54, rfl⟩
abbrev cc10_stg3_0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25
abbrev cc5_sem0_0 : DmaSem sig := 26
abbrev cc5_sem0_1 : DmaSem sig := 27
abbrev cc5_sem1_0 : DmaSem sig := 28
abbrev cc5_sem1_1 : DmaSem sig := 29
abbrev cc5_sem2_0 : DmaSem sig := 30
abbrev cc5_sem2_1 : DmaSem sig := 31
abbrev cc6_sem0_0 : DmaSem sig := 32
abbrev cc6_sem1_0 : DmaSem sig := 33
abbrev cc6_sem2_0 : DmaSem sig := 34
abbrev cc6_sem3_0 : DmaSem sig := 35
abbrev cc7_sem0_0 : DmaSem sig := 36
abbrev cc7_sem0_1 : DmaSem sig := 37
abbrev cc7_sem1_0 : DmaSem sig := 38
abbrev cc7_sem1_1 : DmaSem sig := 39
abbrev cc7_sem2_0 : DmaSem sig := 40
abbrev cc7_sem2_1 : DmaSem sig := 41
abbrev cc8_sem0_0 : DmaSem sig := 42
abbrev cc8_sem1_0 : DmaSem sig := 43
abbrev cc8_sem2_0 : DmaSem sig := 44
abbrev cc8_sem3_0 : DmaSem sig := 45
abbrev cc9_sem0_0 : DmaSem sig := 46
abbrev cc9_sem0_1 : DmaSem sig := 47
abbrev cc9_sem1_0 : DmaSem sig := 48
abbrev cc9_sem1_1 : DmaSem sig := 49
abbrev cc9_sem2_0 : DmaSem sig := 50
abbrev cc9_sem2_1 : DmaSem sig := 51
abbrev cc10_sem0_0 : DmaSem sig := 52
abbrev cc10_sem1_0 : DmaSem sig := 53
abbrev cc10_sem2_0 : DmaSem sig := 54
abbrev cc10_sem3_0 : DmaSem sig := 55

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S384000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S384000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S384000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 1 → Memref sig .tc .vmem S30000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S30000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S30000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S30000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![10], ![false]⟩

def cc3_transform_0 (i : grid3.Coords) : Fin 1 → Nat :=
  let arg0 : BitVec 32 := BitVec.ofNat 32 (i 0).val
  let c0_i32 : BitVec 32 := 0#32
  ![arg0.toNat]

def cc3_transform_1 (i : grid3.Coords) : Fin 1 → Nat :=
  let arg0 : BitVec 32 := BitVec.ofNat 32 (i 0).val
  let c0_i32 : BitVec 32 := 0#32
  ![arg0.toNat]

def cc3_transform_2 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S384000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S384000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S384000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

abbrev stage4_0 : Fin 1 → Memref sig .tc .vmem S30000 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S30000 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S30000 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S30000 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 1 → Nat :=
  let arg0 : BitVec 32 := BitVec.ofNat 32 (i 0).val
  let c0_i32 : BitVec 32 := 0#32
  ![arg0.toNat]

def cc5_transform_1 (i : grid5.Coords) : Fin 1 → Nat :=
  let arg0 : BitVec 32 := BitVec.ofNat 32 (i 0).val
  let c0_i32 : BitVec 32 := 0#32
  ![arg0.toNat]

def cc5_transform_2 (i : grid5.Coords) : Fin 1 → Nat :=
  let arg0 : BitVec 32 := BitVec.ofNat 32 (i 0).val
  let c0_i32 : BitVec 32 := 0#32
  ![arg0.toNat]

abbrev stage5_0 : Fin 2 → Memref sig .tc .vmem S384000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S384000 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S384000 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

abbrev stage6_0 : Fin 1 → Memref sig .tc .vmem S30000 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S30000 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S30000 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S30000 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![10], ![false]⟩

def cc7_transform_0 (i : grid7.Coords) : Fin 1 → Nat :=
  let arg0 : BitVec 32 := BitVec.ofNat 32 (i 0).val
  let c0_i32 : BitVec 32 := 0#32
  ![arg0.toNat]

def cc7_transform_1 (i : grid7.Coords) : Fin 1 → Nat :=
  let arg0 : BitVec 32 := BitVec.ofNat 32 (i 0).val
  let c0_i32 : BitVec 32 := 0#32
  ![arg0.toNat]

def cc7_transform_2 (i : grid7.Coords) : Fin 1 → Nat :=
  let arg0 : BitVec 32 := BitVec.ofNat 32 (i 0).val
  let c0_i32 : BitVec 32 := 0#32
  ![arg0.toNat]

abbrev stage7_0 : Fin 2 → Memref sig .tc .vmem S384000 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S384000 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S384000 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![1], ![false]⟩

def cc8_transform_0 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_1 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

abbrev stage8_0 : Fin 1 → Memref sig .tc .vmem S30000 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S30000 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S30000 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S30000 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev grid9 : Pipeline.Grid := ⟨1, ![5], ![false]⟩

def cc9_transform_0 (i : grid9.Coords) : Fin 1 → Nat :=
  let arg0 : BitVec 32 := BitVec.ofNat 32 (i 0).val
  let c0_i32 : BitVec 32 := 0#32
  ![arg0.toNat]

def cc9_transform_1 (i : grid9.Coords) : Fin 1 → Nat :=
  let arg0 : BitVec 32 := BitVec.ofNat 32 (i 0).val
  let c0_i32 : BitVec 32 := 0#32
  ![arg0.toNat]

def cc9_transform_2 (i : grid9.Coords) : Fin 1 → Nat :=
  let arg0 : BitVec 32 := BitVec.ofNat 32 (i 0).val
  let c0_i32 : BitVec 32 := 0#32
  ![arg0.toNat]

abbrev stage9_0 : Fin 2 → Memref sig .tc .vmem S25600 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S25600 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S25600 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![1], ![false]⟩

def cc10_transform_0 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_1 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 1 → Nat :=
  let arg0 : BitVec 32 := BitVec.ofNat 32 (i 0).val
  let c0_i32 : BitVec 32 := 0#32
  let c0_i32_0 : BitVec 32 := 0#32
  ![c0_i32.toNat]

abbrev stage10_0 : Fin 1 → Memref sig .tc .vmem S1000 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S1000 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1000 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1000 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S96000 : S_.BroadcastsInDim S96000 (![] : Fin 0 → Fin S96000.rank)
  concatenates_S4000000_S96000_S4096000_d0 : Shape.Concatenates [S4000000, S96000] S4096000 0
  inb_S512000_S512000_0 : ∀ a, (![0] : Fin 1 → Nat) a + S512000.size a ≤ S512000.size a
  h_S512000 : 0 < S512000.numel
  shapeCasts_S512000_S512000 : S512000.ShapeCasts S512000
  slices_S4096000_S4000000_0 : S4096000.Slices ![0] S4000000
  bcast_S_S121000 : S_.BroadcastsInDim S121000 (![] : Fin 0 → Fin S121000.rank)
  bcast_S_S131000 : S_.BroadcastsInDim S131000 (![] : Fin 0 → Fin S131000.rank)
  bcast_S_S1 : S_.BroadcastsInDim S1 (![] : Fin 0 → Fin S1.rank)
  bcast_S_S3840000 : S_.BroadcastsInDim S3840000 (![] : Fin 0 → Fin S3840000.rank)
  bcast_S3840000_S3840000x1_0 : S3840000.BroadcastsInDim S3840000x1 (![0] : Fin 1 → Fin S3840000x1.rank)
  inb_S384000_S384000_0 : ∀ a, (![0] : Fin 1 → Nat) a + S384000.size a ≤ S384000.size a
  h_S384000 : 0 < S384000.numel
  shapeCasts_S384000_S384000 : S384000.ShapeCasts S384000
  bcast_S_S30000 : S_.BroadcastsInDim S30000 (![] : Fin 0 → Fin S30000.rank)
  slices_S121000_S30000_0 : S121000.Slices ![0] S30000
  inb_S30000_S30000_0 : ∀ a, (![0] : Fin 1 → Nat) a + S30000.size a ≤ S30000.size a
  h_S30000 : 0 < S30000.numel
  shapeCasts_S30000_S30000 : S30000.ShapeCasts S30000
  slices_S121000_S30000_30000 : S121000.Slices ![30000] S30000
  slices_S121000_S30000_60000 : S121000.Slices ![60000] S30000
  slices_S121000_S30000_90000 : S121000.Slices ![90000] S30000
  bcast_S_S128000 : S_.BroadcastsInDim S128000 (![] : Fin 0 → Fin S128000.rank)
  bcast_S128000_S128000x1_0 : S128000.BroadcastsInDim S128000x1 (![0] : Fin 1 → Fin S128000x1.rank)
  inb_S25600_S25600_0 : ∀ a, (![0] : Fin 1 → Nat) a + S25600.size a ≤ S25600.size a
  h_S25600 : 0 < S25600.numel
  shapeCasts_S25600_S25600 : S25600.ShapeCasts S25600
  bcast_S_S1000 : S_.BroadcastsInDim S1000 (![] : Fin 0 → Fin S1000.rank)
  slices_S121000_S1000_120000 : S121000.Slices ![120000] S1000
  inb_S1000_S1000_0 : ∀ a, (![0] : Fin 1 → Nat) a + S1000.size a ≤ S1000.size a
  h_S1000 : 0 < S1000.numel
  shapeCasts_S1000_S1000 : S1000.ShapeCasts S1000
  slices_S131000_S1000_130000 : S131000.Slices ![130000] S1000
  gather_S131000_S4000000x1_S4000000_n_0_n_n_0_1_1_wf : GatherDims.WF S131000 S4000000x1 S4000000 [] [0] [] [0] [] 1 ![1]
  scatter_S121000_S4000000x1_S4000000_n_0_0_1_wf : ScatterDims.WF S121000 S4000000x1 S4000000 [] [0] [0] 1
  scatter_S131000_S1_S10000_0_n_0_0_wf : ScatterDims.WF S131000 S1 S10000 [0] [] [0] 0
  gather_S131000_S3840000x1_S3840000_n_0_n_n_0_1_1_wf : GatherDims.WF S131000 S3840000x1 S3840000 [] [0] [] [0] [] 1 ![1]
  scatter_S30000_S3840000x1_S3840000_n_0_0_1_wf : ScatterDims.WF S30000 S3840000x1 S3840000 [] [0] [0] 1
  scatter_S131000_S1_S30000_0_n_0_0_wf : ScatterDims.WF S131000 S1 S30000 [0] [] [0] 0
  gather_S131000_S128000x1_S128000_n_0_n_n_0_1_1_wf : GatherDims.WF S131000 S128000x1 S128000 [] [0] [] [0] [] 1 ![1]
  scatter_S1000_S128000x1_S128000_n_0_0_1_wf : ScatterDims.WF S1000 S128000x1 S128000 [] [0] [0] 1
  scatter_S131000_S1_S1000_0_n_0_0_wf : ScatterDims.WF S131000 S1 S1000 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512000.size a ≤ S4096000.size a
  hwx0_0 : ∀ i : grid0.Coords, EltTy.bits .f32 = 32 ∨ (Rect.block (s := S4096000) S512000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512000.size a ≤ S4096000.size a
  hwx0_1 : ∀ i : grid0.Coords, EltTy.bits .f32 = 32 ∨ (Rect.block (s := S4096000) S512000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512000.size a ≤ S4096000.size a
  hwx0_2 : ∀ i : grid0.Coords, EltTy.bits .f32 = 32 ∨ (Rect.block (s := S4096000) S512000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S384000.size a ≤ S3840000.size a
  hwx1_0 : ∀ i : grid1.Coords, EltTy.bits .f32 = 32 ∨ (Rect.block (s := S3840000) S384000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S384000.size a ≤ S3840000.size a
  hwx1_1 : ∀ i : grid1.Coords, EltTy.bits .f32 = 32 ∨ (Rect.block (s := S3840000) S384000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S384000.size a ≤ S3840000.size a
  hwx1_2 : ∀ i : grid1.Coords, EltTy.bits .f32 = 32 ∨ (Rect.block (s := S3840000) S384000.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S30000.size a ≤ S30000.size a
  hwx2_0 : ∀ i : grid2.Coords, EltTy.bits .f32 = 32 ∨ (Rect.block (s := S30000) S30000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S30000.size a ≤ S30000.size a
  hwx2_1 : ∀ i : grid2.Coords, EltTy.bits .f32 = 32 ∨ (Rect.block (s := S30000) S30000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S30000.size a ≤ S30000.size a
  hwx2_2 : ∀ i : grid2.Coords, EltTy.bits .f32 = 32 ∨ (Rect.block (s := S30000) S30000.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S30000.size a ≤ S30000.size a
  hwx2_3 : ∀ i : grid2.Coords, EltTy.bits .f32 = 32 ∨ (Rect.block (s := S30000) S30000.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S384000.size a ≤ S3840000.size a
  hwx3_0 : ∀ i : grid3.Coords, EltTy.bits .f32 = 32 ∨ (Rect.block (s := S3840000) S384000.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S384000.size a ≤ S3840000.size a
  hwx3_1 : ∀ i : grid3.Coords, EltTy.bits .f32 = 32 ∨ (Rect.block (s := S3840000) S384000.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S384000.size a ≤ S3840000.size a
  hwx3_2 : ∀ i : grid3.Coords, EltTy.bits .f32 = 32 ∨ (Rect.block (s := S3840000) S384000.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S30000.size a ≤ S30000.size a
  hwx4_0 : ∀ i : grid4.Coords, EltTy.bits .f32 = 32 ∨ (Rect.block (s := S30000) S30000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S30000.size a ≤ S30000.size a
  hwx4_1 : ∀ i : grid4.Coords, EltTy.bits .f32 = 32 ∨ (Rect.block (s := S30000) S30000.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S30000.size a ≤ S30000.size a
  hwx4_2 : ∀ i : grid4.Coords, EltTy.bits .f32 = 32 ∨ (Rect.block (s := S30000) S30000.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S30000.size a ≤ S30000.size a
  hwx4_3 : ∀ i : grid4.Coords, EltTy.bits .f32 = 32 ∨ (Rect.block (s := S30000) S30000.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S384000.size a ≤ S3840000.size a
  hwx5_0 : ∀ i : grid5.Coords, EltTy.bits .f32 = 32 ∨ (Rect.block (s := S3840000) S384000.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S384000.size a ≤ S3840000.size a
  hwx5_1 : ∀ i : grid5.Coords, EltTy.bits .f32 = 32 ∨ (Rect.block (s := S3840000) S384000.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S384000.size a ≤ S3840000.size a
  hwx5_2 : ∀ i : grid5.Coords, EltTy.bits .f32 = 32 ∨ (Rect.block (s := S3840000) S384000.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S30000.size a ≤ S30000.size a
  hwx6_0 : ∀ i : grid6.Coords, EltTy.bits .f32 = 32 ∨ (Rect.block (s := S30000) S30000.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S30000.size a ≤ S30000.size a
  hwx6_1 : ∀ i : grid6.Coords, EltTy.bits .f32 = 32 ∨ (Rect.block (s := S30000) S30000.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S30000.size a ≤ S30000.size a
  hwx6_2 : ∀ i : grid6.Coords, EltTy.bits .f32 = 32 ∨ (Rect.block (s := S30000) S30000.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S30000.size a ≤ S30000.size a
  hwx6_3 : ∀ i : grid6.Coords, EltTy.bits .f32 = 32 ∨ (Rect.block (s := S30000) S30000.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S384000.size a ≤ S3840000.size a
  hwx7_0 : ∀ i : grid7.Coords, EltTy.bits .f32 = 32 ∨ (Rect.block (s := S3840000) S384000.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S384000.size a ≤ S3840000.size a
  hwx7_1 : ∀ i : grid7.Coords, EltTy.bits .f32 = 32 ∨ (Rect.block (s := S3840000) S384000.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S384000.size a ≤ S3840000.size a
  hwx7_2 : ∀ i : grid7.Coords, EltTy.bits .f32 = 32 ∨ (Rect.block (s := S3840000) S384000.size (cc7_transform_2 i) (hinb7_2 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S30000.size a ≤ S30000.size a
  hwx8_0 : ∀ i : grid8.Coords, EltTy.bits .f32 = 32 ∨ (Rect.block (s := S30000) S30000.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S30000.size a ≤ S30000.size a
  hwx8_1 : ∀ i : grid8.Coords, EltTy.bits .f32 = 32 ∨ (Rect.block (s := S30000) S30000.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S30000.size a ≤ S30000.size a
  hwx8_2 : ∀ i : grid8.Coords, EltTy.bits .f32 = 32 ∨ (Rect.block (s := S30000) S30000.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S30000.size a ≤ S30000.size a
  hwx8_3 : ∀ i : grid8.Coords, EltTy.bits .f32 = 32 ∨ (Rect.block (s := S30000) S30000.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S25600.size a ≤ S128000.size a
  hwx9_0 : ∀ i : grid9.Coords, EltTy.bits .f32 = 32 ∨ (Rect.block (s := S128000) S25600.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S25600.size a ≤ S128000.size a
  hwx9_1 : ∀ i : grid9.Coords, EltTy.bits .f32 = 32 ∨ (Rect.block (s := S128000) S25600.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S25600.size a ≤ S128000.size a
  hwx9_2 : ∀ i : grid9.Coords, EltTy.bits .f32 = 32 ∨ (Rect.block (s := S128000) S25600.size (cc9_transform_2 i) (hinb9_2 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S1000.size a ≤ S1000.size a
  hwx10_0 : ∀ i : grid10.Coords, EltTy.bits .f32 = 32 ∨ (Rect.block (s := S1000) S1000.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1000.size a ≤ S1000.size a
  hwx10_1 : ∀ i : grid10.Coords, EltTy.bits .f32 = 32 ∨ (Rect.block (s := S1000) S1000.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1000.size a ≤ S1000.size a
  hwx10_2 : ∀ i : grid10.Coords, EltTy.bits .f32 = 32 ∨ (Rect.block (s := S1000) S1000.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1000.size a ≤ S1000.size a
  hwx10_3 : ∀ i : grid10.Coords, EltTy.bits .f32 = 32 ∨ (Rect.block (s := S1000) S1000.size (cc10_transform_3 i) (hinb10_3 i)).WholeWords (EltTy.packing .f32)

variable [Facts₀]

def gather_S131000_S4000000x1_S4000000_n_0_n_n_0_1_1 : GatherDims S131000 S4000000x1 S4000000 where
  offsetDims := []
  collapsedSliceDims := [0]
  operandBatchingDims := []
  startIndicesBatchingDims := []
  startIndexMap := [0]
  indexVectorDim := 1
  sliceSizes := ![1]
  wf := gather_S131000_S4000000x1_S4000000_n_0_n_n_0_1_1_wf
def scatter_S121000_S4000000x1_S4000000_n_0_0_1 : ScatterDims S121000 S4000000x1 S4000000 where
  updateWindowDims := []
  insertedWindowDims := [0]
  scatterDimsToOperandDims := [0]
  indexVectorDim := 1
  wf := scatter_S121000_S4000000x1_S4000000_n_0_0_1_wf
def scatter_S131000_S1_S10000_0_n_0_0 : ScatterDims S131000 S1 S10000 where
  updateWindowDims := [0]
  insertedWindowDims := []
  scatterDimsToOperandDims := [0]
  indexVectorDim := 0
  wf := scatter_S131000_S1_S10000_0_n_0_0_wf
def gather_S131000_S3840000x1_S3840000_n_0_n_n_0_1_1 : GatherDims S131000 S3840000x1 S3840000 where
  offsetDims := []
  collapsedSliceDims := [0]
  operandBatchingDims := []
  startIndicesBatchingDims := []
  startIndexMap := [0]
  indexVectorDim := 1
  sliceSizes := ![1]
  wf := gather_S131000_S3840000x1_S3840000_n_0_n_n_0_1_1_wf
def scatter_S30000_S3840000x1_S3840000_n_0_0_1 : ScatterDims S30000 S3840000x1 S3840000 where
  updateWindowDims := []
  insertedWindowDims := [0]
  scatterDimsToOperandDims := [0]
  indexVectorDim := 1
  wf := scatter_S30000_S3840000x1_S3840000_n_0_0_1_wf
def scatter_S131000_S1_S30000_0_n_0_0 : ScatterDims S131000 S1 S30000 where
  updateWindowDims := [0]
  insertedWindowDims := []
  scatterDimsToOperandDims := [0]
  indexVectorDim := 0
  wf := scatter_S131000_S1_S30000_0_n_0_0_wf
def gather_S131000_S128000x1_S128000_n_0_n_n_0_1_1 : GatherDims S131000 S128000x1 S128000 where
  offsetDims := []
  collapsedSliceDims := [0]
  operandBatchingDims := []
  startIndicesBatchingDims := []
  startIndexMap := [0]
  indexVectorDim := 1
  sliceSizes := ![1]
  wf := gather_S131000_S128000x1_S128000_n_0_n_n_0_1_1_wf
def scatter_S1000_S128000x1_S128000_n_0_0_1 : ScatterDims S1000 S128000x1 S128000 where
  updateWindowDims := []
  insertedWindowDims := [0]
  scatterDimsToOperandDims := [0]
  indexVectorDim := 1
  wf := scatter_S1000_S128000x1_S128000_n_0_0_1_wf
def scatter_S131000_S1_S1000_0_n_0_0 : ScatterDims S131000 S1 S1000 where
  updateWindowDims := [0]
  insertedWindowDims := []
  scatterDimsToOperandDims := [0]
  indexVectorDim := 0
  wf := scatter_S131000_S1_S1000_0_n_0_0_wf

abbrev win0_0 : Pipeline.Window sig grid0 :=
  Pipeline.Window.ofSpec (Memref.whole main_v8) S512000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S384000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S384000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S384000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v30) S30000.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v31) S30000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S30000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S30000.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S384000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S384000.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S384000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v46) S30000.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v47) S30000.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v45) S30000.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S30000.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v57) S384000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S384000.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v58) S384000.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v62) S30000.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v63) S30000.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v61) S30000.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v64) S30000.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v73) S384000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg14) S384000.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v74) S384000.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v78) S30000.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v79) S30000.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v77) S30000.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v80) S30000.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v89) S25600.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg17) S25600.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v90) S25600.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v94) S1000.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_v95) S1000.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v93) S1000.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v96) S1000.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S10000 : Shape := ⟨1, ![10000]⟩
abbrev S131000 : Shape := ⟨1, ![131000]⟩
abbrev S121000 : Shape := ⟨1, ![121000]⟩
abbrev S3840000 : Shape := ⟨1, ![3840000]⟩
abbrev S128000 : Shape := ⟨1, ![128000]⟩
abbrev S4000000 : Shape := ⟨1, ![4000000]⟩
abbrev S_ : Shape := ⟨0, ![]⟩
abbrev S4000000x1 : Shape := ⟨2, ![4000000, 1]⟩
abbrev S1 : Shape := ⟨1, ![1]⟩
abbrev S3840000x1 : Shape := ⟨2, ![3840000, 1]⟩
abbrev S30000 : Shape := ⟨1, ![30000]⟩
abbrev S128000x1 : Shape := ⟨2, ![128000, 1]⟩
abbrev S1000 : Shape := ⟨1, ![1000]⟩

abbrev nBuf : Space → Nat
  | .hbm => 151
  | .vmem => 0
  | .smem => 0
  | _ => 0

abbrev hbmTy0_0 (i : Nat) : BufTy := match i % 128 with
  | 0 => ⟨S10000, .f32⟩
  | 1 => ⟨S131000, .f32⟩
  | 2 => ⟨S121000, .f32⟩
  | 3 => ⟨S3840000, .i32⟩
  | 4 => ⟨S3840000, .i32⟩
  | 5 => ⟨S3840000, .f32⟩
  | 6 => ⟨S3840000, .i32⟩
  | 7 => ⟨S3840000, .i32⟩
  | 8 => ⟨S3840000, .f32⟩
  | 9 => ⟨S3840000, .i32⟩
  | 10 => ⟨S3840000, .i32⟩
  | 11 => ⟨S3840000, .f32⟩
  | 12 => ⟨S3840000, .i32⟩
  | 13 => ⟨S3840000, .i32⟩
  | 14 => ⟨S3840000, .f32⟩
  | 15 => ⟨S128000, .i32⟩
  | 16 => ⟨S128000, .i32⟩
  | 17 => ⟨S128000, .f32⟩
  | 18 => ⟨S4000000, .i32⟩
  | 19 => ⟨S4000000, .i32⟩
  | 20 => ⟨S4000000, .f32⟩
  | 21 => ⟨S_, .i32⟩
  | 22 => ⟨S4000000, .i32⟩
  | 23 => ⟨S4000000, .i1⟩
  | 24 => ⟨S_, .i32⟩
  | 25 => ⟨S4000000, .i32⟩
  | 26 => ⟨S4000000, .i32⟩
  | 27 => ⟨S4000000, .i32⟩
  | 28 => ⟨S4000000x1, .i32⟩
  | 29 => ⟨S4000000, .f32⟩
  | 30 => ⟨S4000000, .f32⟩
  | 31 => ⟨S_, .f32⟩
  | 32 => ⟨S121000, .f32⟩
  | 33 => ⟨S4000000x1, .i32⟩
  | 34 => ⟨S121000, .f32⟩
  | 35 => ⟨S_, .f32⟩
  | 36 => ⟨S131000, .f32⟩
  | 37 => ⟨S_, .i32⟩
  | 38 => ⟨S1, .i32⟩
  | 39 => ⟨S131000, .f32⟩
  | 40 => ⟨S_, .i32⟩
  | 41 => ⟨S3840000, .i32⟩
  | 42 => ⟨S3840000, .i1⟩
  | 43 => ⟨S_, .i32⟩
  | 44 => ⟨S3840000, .i32⟩
  | 45 => ⟨S3840000, .i32⟩
  | 46 => ⟨S3840000, .i32⟩
  | 47 => ⟨S3840000x1, .i32⟩
  | 48 => ⟨S3840000, .f32⟩
  | 49 => ⟨S3840000, .f32⟩
  | 50 => ⟨S_, .f32⟩
  | 51 => ⟨S30000, .f32⟩
  | 52 => ⟨S3840000x1, .i32⟩
  | 53 => ⟨S30000, .f32⟩
  | 54 => ⟨S30000, .f32⟩
  | 55 => ⟨S30000, .f32⟩
  | 56 => ⟨S30000, .f32⟩
  | 57 => ⟨S30000, .f32⟩
  | 58 => ⟨S30000, .f32⟩
  | 59 => ⟨S_, .i32⟩
  | 60 => ⟨S1, .i32⟩
  | 61 => ⟨S131000, .f32⟩
  | 62 => ⟨S_, .i32⟩
  | 63 => ⟨S3840000, .i32⟩
  | 64 => ⟨S3840000, .i1⟩
  | 65 => ⟨S_, .i32⟩
  | 66 => ⟨S3840000, .i32⟩
  | 67 => ⟨S3840000, .i32⟩
  | 68 => ⟨S3840000, .i32⟩
  | 69 => ⟨S3840000x1, .i32⟩
  | 70 => ⟨S3840000, .f32⟩
  | 71 => ⟨S3840000, .f32⟩
  | 72 => ⟨S_, .f32⟩
  | 73 => ⟨S30000, .f32⟩
  | 74 => ⟨S3840000x1, .i32⟩
  | 75 => ⟨S30000, .f32⟩
  | 76 => ⟨S30000, .f32⟩
  | 77 => ⟨S30000, .f32⟩
  | 78 => ⟨S30000, .f32⟩
  | 79 => ⟨S30000, .f32⟩
  | 80 => ⟨S30000, .f32⟩
  | 81 => ⟨S_, .i32⟩
  | 82 => ⟨S1, .i32⟩
  | 83 => ⟨S131000, .f32⟩
  | 84 => ⟨S_, .i32⟩
  | 85 => ⟨S3840000, .i32⟩
  | 86 => ⟨S3840000, .i1⟩
  | 87 => ⟨S_, .i32⟩
  | 88 => ⟨S3840000, .i32⟩
  | 89 => ⟨S3840000, .i32⟩
  | 90 => ⟨S3840000, .i32⟩
  | 91 => ⟨S3840000x1, .i32⟩
  | 92 => ⟨S3840000, .f32⟩
  | 93 => ⟨S3840000, .f32⟩
  | 94 => ⟨S_, .f32⟩
  | 95 => ⟨S30000, .f32⟩
  | 96 => ⟨S3840000x1, .i32⟩
  | 97 => ⟨S30000, .f32⟩
  | 98 => ⟨S30000, .f32⟩
  | 99 => ⟨S30000, .f32⟩
  | 100 => ⟨S30000, .f32⟩
  | 101 => ⟨S30000, .f32⟩
  | 102 => ⟨S30000, .f32⟩
  | 103 => ⟨S_, .i32⟩
  | 104 => ⟨S1, .i32⟩
  | 105 => ⟨S131000, .f32⟩
  | 106 => ⟨S_, .i32⟩
  | 107 => ⟨S3840000, .i32⟩
  | 108 => ⟨S3840000, .i1⟩
  | 109 => ⟨S_, .i32⟩
  | 110 => ⟨S3840000, .i32⟩
  | 111 => ⟨S3840000, .i32⟩
  | 112 => ⟨S3840000, .i32⟩
  | 113 => ⟨S3840000x1, .i32⟩
  | 114 => ⟨S3840000, .f32⟩
  | 115 => ⟨S3840000, .f32⟩
  | 116 => ⟨S_, .f32⟩
  | 117 => ⟨S30000, .f32⟩
  | 118 => ⟨S3840000x1, .i32⟩
  | 119 => ⟨S30000, .f32⟩
  | 120 => ⟨S30000, .f32⟩
  | 121 => ⟨S30000, .f32⟩
  | 122 => ⟨S30000, .f32⟩
  | 123 => ⟨S30000, .f32⟩
  | 124 => ⟨S30000, .f32⟩
  | 125 => ⟨S_, .i32⟩
  | 126 => ⟨S1, .i32⟩
  | 127 => ⟨S131000, .f32⟩
  | _ => ⟨S10000, .f32⟩

abbrev hbmTy0_1 (i : Nat) : BufTy := match i % 128 with
  | 0 => ⟨S_, .i32⟩
  | 1 => ⟨S128000, .i32⟩
  | 2 => ⟨S128000, .i1⟩
  | 3 => ⟨S_, .i32⟩
  | 4 => ⟨S128000, .i32⟩
  | 5 => ⟨S128000, .i32⟩
  | 6 => ⟨S128000, .i32⟩
  | 7 => ⟨S128000x1, .i32⟩
  | 8 => ⟨S128000, .f32⟩
  | 9 => ⟨S128000, .f32⟩
  | 10 => ⟨S_, .f32⟩
  | 11 => ⟨S1000, .f32⟩
  | 12 => ⟨S128000x1, .i32⟩
  | 13 => ⟨S1000, .f32⟩
  | 14 => ⟨S1000, .f32⟩
  | 15 => ⟨S1000, .f32⟩
  | 16 => ⟨S1000, .f32⟩
  | 17 => ⟨S1000, .f32⟩
  | 18 => ⟨S1000, .f32⟩
  | 19 => ⟨S_, .i32⟩
  | 20 => ⟨S1, .i32⟩
  | 21 => ⟨S131000, .f32⟩
  | 22 => ⟨S1000, .f32⟩
  | _ => ⟨S10000, .f32⟩

abbrev hbmTy (i : Nat) : BufTy := match i / 128 with
  | 0 => hbmTy0_0 i
  | 1 => hbmTy0_1 i
  | _ => ⟨S10000, .f32⟩

abbrev bufTy : (tb : Table) → Fin (tcTables nBuf tb) → BufTy
  | .hbm, ⟨i, _⟩ => hbmTy i
  | _, _ => ⟨S10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_c_2 : Ref sig .tc := ⟨.hbm, 37, rfl⟩
abbrev main_v12 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_6 : Ref sig .tc := ⟨.hbm, 59, rfl⟩
abbrev main_v30 : Ref sig .tc := ⟨.hbm, 60, rfl⟩
abbrev main_v31 : Ref sig .tc := ⟨.hbm, 61, rfl⟩
abbrev main_c_7 : Ref sig .tc := ⟨.hbm, 62, rfl⟩
abbrev main_v32 : Ref sig .tc := ⟨.hbm, 63, rfl⟩
abbrev main_v33 : Ref sig .tc := ⟨.hbm, 64, rfl⟩
abbrev main_c_8 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_9 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_10 : Ref sig .tc := ⟨.hbm, 81, rfl⟩
abbrev main_v48 : Ref sig .tc := ⟨.hbm, 82, rfl⟩
abbrev main_v49 : Ref sig .tc := ⟨.hbm, 83, rfl⟩
abbrev main_c_11 : Ref sig .tc := ⟨.hbm, 84, rfl⟩
abbrev main_v50 : Ref sig .tc := ⟨.hbm, 85, rfl⟩
abbrev main_v51 : Ref sig .tc := ⟨.hbm, 86, rfl⟩
abbrev main_c_12 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_13 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_14 : Ref sig .tc := ⟨.hbm, 103, rfl⟩
abbrev main_v66 : Ref sig .tc := ⟨.hbm, 104, rfl⟩
abbrev main_v67 : Ref sig .tc := ⟨.hbm, 105, rfl⟩
abbrev main_c_15 : Ref sig .tc := ⟨.hbm, 106, rfl⟩
abbrev main_v68 : Ref sig .tc := ⟨.hbm, 107, rfl⟩
abbrev main_v69 : Ref sig .tc := ⟨.hbm, 108, rfl⟩
abbrev main_c_16 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_17 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_18 : Ref sig .tc := ⟨.hbm, 125, rfl⟩
abbrev main_v84 : Ref sig .tc := ⟨.hbm, 126, rfl⟩
abbrev main_v85 : Ref sig .tc := ⟨.hbm, 127, rfl⟩
abbrev main_c_19 : Ref sig .tc := ⟨.hbm, 128, rfl⟩
abbrev main_v86 : Ref sig .tc := ⟨.hbm, 129, rfl⟩
abbrev main_v87 : Ref sig .tc := ⟨.hbm, 130, rfl⟩
abbrev main_c_20 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_21 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_c_22 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S121000 : S_.BroadcastsInDim S121000 (![] : Fin 0 → Fin S121000.rank)
  bcast_S_S131000 : S_.BroadcastsInDim S131000 (![] : Fin 0 → Fin S131000.rank)
  bcast_S_S1 : S_.BroadcastsInDim S1 (![] : Fin 0 → Fin S1.rank)
  bcast_S_S3840000 : S_.BroadcastsInDim S3840000 (![] : Fin 0 → Fin S3840000.rank)
  bcast_S3840000_S3840000x1_0 : S3840000.BroadcastsInDim S3840000x1 (![0] : Fin 1 → Fin S3840000x1.rank)
  bcast_S_S30000 : S_.BroadcastsInDim S30000 (![] : Fin 0 → Fin S30000.rank)
  slices_S121000_S30000_0 : S121000.Slices ![0] S30000
  slices_S121000_S30000_30000 : S121000.Slices ![30000] S30000
  slices_S121000_S30000_60000 : S121000.Slices ![60000] S30000
  slices_S121000_S30000_90000 : S121000.Slices ![90000] S30000
  bcast_S_S128000 : S_.BroadcastsInDim S128000 (![] : Fin 0 → Fin S128000.rank)
  bcast_S128000_S128000x1_0 : S128000.BroadcastsInDim S128000x1 (![0] : Fin 1 → Fin S128000x1.rank)
  bcast_S_S1000 : S_.BroadcastsInDim S1000 (![] : Fin 0 → Fin S1000.rank)
  slices_S121000_S1000_120000 : S121000.Slices ![120000] S1000
  slices_S131000_S1000_130000 : S131000.Slices ![130000] S1000
  gather_S131000_S4000000x1_S4000000_n_0_n_n_0_1_1_wf : GatherDims.WF S131000 S4000000x1 S4000000 [] [0] [] [0] [] 1 ![1]
  scatter_S121000_S4000000x1_S4000000_n_0_0_1_wf : ScatterDims.WF S121000 S4000000x1 S4000000 [] [0] [0] 1
  scatter_S131000_S1_S10000_0_n_0_0_wf : ScatterDims.WF S131000 S1 S10000 [0] [] [0] 0
  gather_S131000_S3840000x1_S3840000_n_0_n_n_0_1_1_wf : GatherDims.WF S131000 S3840000x1 S3840000 [] [0] [] [0] [] 1 ![1]
  scatter_S30000_S3840000x1_S3840000_n_0_0_1_wf : ScatterDims.WF S30000 S3840000x1 S3840000 [] [0] [0] 1
  scatter_S131000_S1_S30000_0_n_0_0_wf : ScatterDims.WF S131000 S1 S30000 [0] [] [0] 0
  gather_S131000_S128000x1_S128000_n_0_n_n_0_1_1_wf : GatherDims.WF S131000 S128000x1 S128000 [] [0] [] [0] [] 1 ![1]
  scatter_S1000_S128000x1_S128000_n_0_0_1_wf : ScatterDims.WF S1000 S128000x1 S128000 [] [0] [0] 1
  scatter_S131000_S1_S1000_0_n_0_0_wf : ScatterDims.WF S131000 S1 S1000 [0] [] [0] 0

variable [Facts₀]

def gather_S131000_S4000000x1_S4000000_n_0_n_n_0_1_1 : GatherDims S131000 S4000000x1 S4000000 where
  offsetDims := []
  collapsedSliceDims := [0]
  operandBatchingDims := []
  startIndicesBatchingDims := []
  startIndexMap := [0]
  indexVectorDim := 1
  sliceSizes := ![1]
  wf := gather_S131000_S4000000x1_S4000000_n_0_n_n_0_1_1_wf
def scatter_S121000_S4000000x1_S4000000_n_0_0_1 : ScatterDims S121000 S4000000x1 S4000000 where
  updateWindowDims := []
  insertedWindowDims := [0]
  scatterDimsToOperandDims := [0]
  indexVectorDim := 1
  wf := scatter_S121000_S4000000x1_S4000000_n_0_0_1_wf
def scatter_S131000_S1_S10000_0_n_0_0 : ScatterDims S131000 S1 S10000 where
  updateWindowDims := [0]
  insertedWindowDims := []
  scatterDimsToOperandDims := [0]
  indexVectorDim := 0
  wf := scatter_S131000_S1_S10000_0_n_0_0_wf
def gather_S131000_S3840000x1_S3840000_n_0_n_n_0_1_1 : GatherDims S131000 S3840000x1 S3840000 where
  offsetDims := []
  collapsedSliceDims := [0]
  operandBatchingDims := []
  startIndicesBatchingDims := []
  startIndexMap := [0]
  indexVectorDim := 1
  sliceSizes := ![1]
  wf := gather_S131000_S3840000x1_S3840000_n_0_n_n_0_1_1_wf
def scatter_S30000_S3840000x1_S3840000_n_0_0_1 : ScatterDims S30000 S3840000x1 S3840000 where
  updateWindowDims := []
  insertedWindowDims := [0]
  scatterDimsToOperandDims := [0]
  indexVectorDim := 1
  wf := scatter_S30000_S3840000x1_S3840000_n_0_0_1_wf
def scatter_S131000_S1_S30000_0_n_0_0 : ScatterDims S131000 S1 S30000 where
  updateWindowDims := [0]
  insertedWindowDims := []
  scatterDimsToOperandDims := [0]
  indexVectorDim := 0
  wf := scatter_S131000_S1_S30000_0_n_0_0_wf
def gather_S131000_S128000x1_S128000_n_0_n_n_0_1_1 : GatherDims S131000 S128000x1 S128000 where
  offsetDims := []
  collapsedSliceDims := [0]
  operandBatchingDims := []
  startIndicesBatchingDims := []
  startIndexMap := [0]
  indexVectorDim := 1
  sliceSizes := ![1]
  wf := gather_S131000_S128000x1_S128000_n_0_n_n_0_1_1_wf
def scatter_S1000_S128000x1_S128000_n_0_0_1 : ScatterDims S1000 S128000x1 S128000 where
  updateWindowDims := []
  insertedWindowDims := [0]
  scatterDimsToOperandDims := [0]
  indexVectorDim := 1
  wf := scatter_S1000_S128000x1_S128000_n_0_0_1_wf
def scatter_S131000_S1_S1000_0_n_0_0 : ScatterDims S131000 S1 S1000 where
  updateWindowDims := [0]
  insertedWindowDims := []
  scatterDimsToOperandDims := [0]
  indexVectorDim := 0
  wf := scatter_S131000_S1_S1000_0_n_0_0_wf

class Facts : Prop extends Facts₀ where

variable [Facts]
-- ==== Proof.Region0.lean ====
/-
  Region 0 multiplies two arrays of 4096000 floats block by block: 8 grid points, point t owning the
  512000 consecutive entries from t * 512000. Each point writes back the entrywise product of its two input
  blocks, the blocks tile the array, so after the region the output array is the entrywise product of the two
  input arrays as the region found them. On the extended reals the product commutes, which puts the result in
  the operand order the plain program uses (weight first).
-/
import proofs.«428625_j39238821216886_1_alg».proof.Proof.Gen.KernelIdeal.Frame
import Idealize.ShloMosaic.Lib.Pipeline.Value
import Idealize.ShloMosaic.PureOps.Ideal

set_option maxRecDepth 16384

noncomputable section

namespace Cert.KernelIdeal.Mul0

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem off_zero : (![0] : Fin 1 → Nat) = fun _ => 0 := funext fun a => by fin_cases a; rfl

/-- The entrywise product of two arrays. -/
abbrev prod (a0 a1 : S4096000.Idx → Elt F .f32) : S4096000.Idx → Elt F .f32 := fun i => FloatOps.mulf (a0 i) (a1 i)

/-- The body's one store holds the entrywise product of its two loaded blocks (the casts between equal shapes
    are the identity). -/
theorem payload_eq (x0 x1 : Vec F S512000 .f32) : k0_pay1 x0 x1 = mulf x0 x1 := by
  unfold k0_pay1
  simp only [shapeCast_self]

/-- At every grid point the three windows sit on the same block, the point's own number. -/
theorem index_facts : ∀ t : Fin cfg0.N, win0_0.index t (0 : Fin 1) = win0_2.index t (0 : Fin 1)
    ∧ win0_1.index t (0 : Fin 1) = win0_2.index t (0 : Fin 1)
    ∧ win0_2.index t (0 : Fin 1) = t.val :=
  (by decide +kernel : ∀ t : Fin grid0.N, _)

/-- What point t writes back is block t of the product of the two input arrays. -/
theorem flushed_eq (c : Dev nD) (t : Fin cfg0.N) :
    (dat0 V c).flushed 2 t = ((cfg0.win 2).blk t).view.read (Elt F) (prod (V c main_v8) (V c main_v10)) := by
  show (cfg0.win 2).cut (grid0.coords t) ((dat0 V c).after 2 t) = _
  rw [after0_2]
  unfold out0_2
  rw [View.canon_unit_zero off_zero]
  simp only [View.ld_unit_zero (S := S512000) off_zero]
  rw [payload_eq]
  obtain ⟨e0, e1, e2⟩ := index_facts t
  funext j
  show FloatOps.mulf (V c main_v8 (((cfg0.win 0).blk t).view.emb j)) (V c main_v10 (((cfg0.win 1).blk t).view.emb j))
    = FloatOps.mulf (V c main_v8 (((cfg0.win 2).blk t).view.emb j)) (V c main_v10 (((cfg0.win 2).blk t).view.emb j))
  have h0 : ((cfg0.win 0).blk t).view.emb j = ((cfg0.win 2).blk t).view.emb j := by
    funext a; apply Fin.ext
    match a with
    | ⟨0, _⟩ => show win0_0.index t (0 : Fin 1) * 512000 + 1 * (j 0).val = win0_2.index t (0 : Fin 1) * 512000 + 1 * (j 0).val; omega
  have h1 : ((cfg0.win 1).blk t).view.emb j = ((cfg0.win 2).blk t).view.emb j := by
    funext a; apply Fin.ext
    match a with
    | ⟨0, _⟩ => show win0_1.index t (0 : Fin 1) * 512000 + 1 * (j 0).val = win0_2.index t (0 : Fin 1) * 512000 + 1 * (j 0).val; omega
  rw [h0, h1]

/-- An entry lies in point t's block exactly when it lies in that block's range. -/
theorem mem_block (t : Fin cfg0.N) (i : S4096000.Idx) :
    i ∈ ((cfg0.win 2).blk t).view.set ↔ ∀ a : Fin 1, win0_2.index t a * S512000.size a ≤ (i a).val ∧ (i a).val < win0_2.index t a * S512000.size a + S512000.size a := by
  show i ∈ ((View.whole main_v11).slice (win0_2.rect t)).set ↔ _
  rw [View.set_slice_whole, Rect.mem_set_unit]
  exact Iff.rfl

/-- Every entry of the array lies in the block of the point numbered by its quotient by the block length. -/
theorem covered (i : S4096000.Idx) : ∃ t : Fin cfg0.N, (cfg0.win 2).flush t = true ∧ i ∈ ((cfg0.win 2).blk t).view.set := by
  have hi : (i 0).val < 4096000 := (i 0).isLt
  have hN : cfg0.N = 8 := N_0
  refine ⟨⟨(i 0).val / 512000, by rw [hN]; omega⟩, flush0_2 _, ?_⟩
  rw [mem_block]
  intro a
  obtain ⟨-, -, e2⟩ := index_facts ⟨(i 0).val / 512000, by rw [hN]; omega⟩
  match a with
  | ⟨0, _⟩ =>
    show win0_2.index _ (0 : Fin 1) * 512000 ≤ (i 0).val ∧ (i 0).val < win0_2.index _ (0 : Fin 1) * 512000 + 512000
    rw [e2]
    show (i 0).val / 512000 * 512000 ≤ (i 0).val ∧ (i 0).val < (i 0).val / 512000 * 512000 + 512000
    omega

/-- After the region the output array is the entrywise product of the input arrays as the region found them. -/
theorem result (c : Dev nD) : (dat0 V c).arrAt 2 cfg0.N = prod (V c main_v8) (V c main_v10) :=
  (dat0 V c).arrAt_eq_of_cover 2 (prod (V c main_v8) (V c main_v10)) (fun t _ => flushed_eq V c t) covered

end Cert.KernelIdeal.Mul0

namespace Cert.KernelIdeal.Mul0

open Cert.KernelIdeal Cert.KernelIdeal.Gen
open Idealize.ShloMosaic Idealize.ShloMosaic.TcCoe Idealize.SL.Sem

/-- On the extended reals the same array is the product taken weight first. -/
theorem result_comm (V : (c : Dev nD) → (b : Ref sig .tc) → Buf (Elt Ideal) ((c : Thread nD τ).loc b)) (c : Dev nD) :
    (dat0 V c).arrAt 2 cfg0.N = mulf (F := Ideal) (s := S4096000) (φ := .f32) (V c main_v10) (V c main_v8) := by
  rw [result V c]
  funext i
  simp only [prod, mulf, Ideal.mulf_def]
  exact mul_comm _ _

end Cert.KernelIdeal.Mul0

/-! ## The region as a step between two boundaries of the run -/

namespace Cert.KernelIdeal.Mul0

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Across the region every buffer other than its output holds what it held: an input window's array is read,
    never written, and a buffer that is no window's array is not touched at all. -/
theorem keep (c : Dev nD) (b : Ref sig .tc) (hb : b ≠ main_v11) :
    W2 m ρ c (no_index (Proc.devRef .tc b)) = W1 m ρ c (Proc.devRef .tc b) := by
  by_cases h0 : b = main_v8
  · subst h0
    exact (W2_arr m ρ c 0).trans (((dat0 (V1 m ρ) c).arrAt_in 0 rfl _).trans (A_eq0 (V1 m ρ) c 0))
  by_cases h1 : b = main_v10
  · subst h1
    exact (W2_arr m ρ c 1).trans (((dat0 (V1 m ρ) c).arrAt_in 1 rfl _).trans (A_eq0 (V1 m ρ) c 1))
  exact W2_of_ne m ρ c b (fun w => by
    match w with
    | ⟨0, _⟩ => exact fun e => h0 e.symm
    | ⟨1, _⟩ => exact fun e => h1 e.symm
    | ⟨2, _⟩ => exact fun e => hb e.symm)

/-- The output holds the product of the two inputs as they stood at the region's entry, weight first. -/
theorem out (c : Dev nD) :
    W2 m ρ c (no_index (Proc.devRef .tc main_v11))
      = mulf (F := Ideal) (s := S4096000) (φ := .f32) (W1 m ρ c (Proc.devRef .tc main_v10)) (W1 m ρ c (Proc.devRef .tc main_v8)) :=
  (W2_arr m ρ c 2).trans (result_comm (V1 m ρ) c)

end Cert.KernelIdeal.Mul0

end
-- ==== Proof.Region1.lean ====
/-
  Region 1 multiplies two arrays of 3840000 floats block by block: 10 grid points, point t owning the
  384000 consecutive entries from t * 384000. Each point writes back the entrywise product of its two input
  blocks, the blocks tile the array, so after the region the output array is the entrywise product of the two
  input arrays as the region found them. On the extended reals the product commutes, which puts the result in
  the operand order the plain program uses (weight first).
-/
import proofs.«428625_j39238821216886_1_alg».proof.Proof.Gen.KernelIdeal.Frame
import Idealize.ShloMosaic.Lib.Pipeline.Value
import Idealize.ShloMosaic.PureOps.Ideal

set_option maxRecDepth 16384

noncomputable section

namespace Cert.KernelIdeal.Mul1

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem off_zero : (![0] : Fin 1 → Nat) = fun _ => 0 := funext fun a => by fin_cases a; rfl

/-- The entrywise product of two arrays. -/
abbrev prod (a0 a1 : S3840000.Idx → Elt F .f32) : S3840000.Idx → Elt F .f32 := fun i => FloatOps.mulf (a0 i) (a1 i)

/-- The body's one store holds the entrywise product of its two loaded blocks (the casts between equal shapes
    are the identity). -/
theorem payload_eq (x0 x1 : Vec F S384000 .f32) : k1_pay1 x0 x1 = mulf x0 x1 := by
  unfold k1_pay1
  simp only [shapeCast_self]

/-- At every grid point the three windows sit on the same block, the point's own number. -/
theorem index_facts : ∀ t : Fin cfg1.N, win1_0.index t (0 : Fin 1) = win1_2.index t (0 : Fin 1)
    ∧ win1_1.index t (0 : Fin 1) = win1_2.index t (0 : Fin 1)
    ∧ win1_2.index t (0 : Fin 1) = t.val :=
  (by decide +kernel : ∀ t : Fin grid1.N, _)

/-- What point t writes back is block t of the product of the two input arrays. -/
theorem flushed_eq (c : Dev nD) (t : Fin cfg1.N) :
    (dat1 V c).flushed 2 t = ((cfg1.win 2).blk t).view.read (Elt F) (prod (V c main_v25) (V c main_arg5)) := by
  show (cfg1.win 2).cut (grid1.coords t) ((dat1 V c).after 2 t) = _
  rw [after1_2]
  unfold out1_2
  rw [View.canon_unit_zero off_zero]
  simp only [View.ld_unit_zero (S := S384000) off_zero]
  rw [payload_eq]
  obtain ⟨e0, e1, e2⟩ := index_facts t
  funext j
  show FloatOps.mulf (V c main_v25 (((cfg1.win 0).blk t).view.emb j)) (V c main_arg5 (((cfg1.win 1).blk t).view.emb j))
    = FloatOps.mulf (V c main_v25 (((cfg1.win 2).blk t).view.emb j)) (V c main_arg5 (((cfg1.win 2).blk t).view.emb j))
  have h0 : ((cfg1.win 0).blk t).view.emb j = ((cfg1.win 2).blk t).view.emb j := by
    funext a; apply Fin.ext
    match a with
    | ⟨0, _⟩ => show win1_0.index t (0 : Fin 1) * 384000 + 1 * (j 0).val = win1_2.index t (0 : Fin 1) * 384000 + 1 * (j 0).val; omega
  have h1 : ((cfg1.win 1).blk t).view.emb j = ((cfg1.win 2).blk t).view.emb j := by
    funext a; apply Fin.ext
    match a with
    | ⟨0, _⟩ => show win1_1.index t (0 : Fin 1) * 384000 + 1 * (j 0).val = win1_2.index t (0 : Fin 1) * 384000 + 1 * (j 0).val; omega
  rw [h0, h1]

/-- An entry lies in point t's block exactly when it lies in that block's range. -/
theorem mem_block (t : Fin cfg1.N) (i : S3840000.Idx) :
    i ∈ ((cfg1.win 2).blk t).view.set ↔ ∀ a : Fin 1, win1_2.index t a * S384000.size a ≤ (i a).val ∧ (i a).val < win1_2.index t a * S384000.size a + S384000.size a := by
  show i ∈ ((View.whole main_v26).slice (win1_2.rect t)).set ↔ _
  rw [View.set_slice_whole, Rect.mem_set_unit]
  exact Iff.rfl

/-- Every entry of the array lies in the block of the point numbered by its quotient by the block length. -/
theorem covered (i : S3840000.Idx) : ∃ t : Fin cfg1.N, (cfg1.win 2).flush t = true ∧ i ∈ ((cfg1.win 2).blk t).view.set := by
  have hi : (i 0).val < 3840000 := (i 0).isLt
  have hN : cfg1.N = 10 := N_1
  refine ⟨⟨(i 0).val / 384000, by rw [hN]; omega⟩, flush1_2 _, ?_⟩
  rw [mem_block]
  intro a
  obtain ⟨-, -, e2⟩ := index_facts ⟨(i 0).val / 384000, by rw [hN]; omega⟩
  match a with
  | ⟨0, _⟩ =>
    show win1_2.index _ (0 : Fin 1) * 384000 ≤ (i 0).val ∧ (i 0).val < win1_2.index _ (0 : Fin 1) * 384000 + 384000
    rw [e2]
    show (i 0).val / 384000 * 384000 ≤ (i 0).val ∧ (i 0).val < (i 0).val / 384000 * 384000 + 384000
    omega

/-- After the region the output array is the entrywise product of the input arrays as the region found them. -/
theorem result (c : Dev nD) : (dat1 V c).arrAt 2 cfg1.N = prod (V c main_v25) (V c main_arg5) :=
  (dat1 V c).arrAt_eq_of_cover 2 (prod (V c main_v25) (V c main_arg5)) (fun t _ => flushed_eq V c t) covered

end Cert.KernelIdeal.Mul1

namespace Cert.KernelIdeal.Mul1

open Cert.KernelIdeal Cert.KernelIdeal.Gen
open Idealize.ShloMosaic Idealize.ShloMosaic.TcCoe Idealize.SL.Sem

/-- On the extended reals the same array is the product taken weight first. -/
theorem result_comm (V : (c : Dev nD) → (b : Ref sig .tc) → Buf (Elt Ideal) ((c : Thread nD τ).loc b)) (c : Dev nD) :
    (dat1 V c).arrAt 2 cfg1.N = mulf (F := Ideal) (s := S3840000) (φ := .f32) (V c main_arg5) (V c main_v25) := by
  rw [result V c]
  funext i
  simp only [prod, mulf, Ideal.mulf_def]
  exact mul_comm _ _

end Cert.KernelIdeal.Mul1

/-! ## The region as a step between two boundaries of the run -/

namespace Cert.KernelIdeal.Mul1

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Across the region every buffer other than its output holds what it held: an input window's array is read,
    never written, and a buffer that is no window's array is not touched at all. -/
theorem keep (c : Dev nD) (b : Ref sig .tc) (hb : b ≠ main_v26) :
    W4 m ρ c (no_index (Proc.devRef .tc b)) = W3 m ρ c (Proc.devRef .tc b) := by
  by_cases h0 : b = main_v25
  · subst h0
    exact (W4_arr m ρ c 0).trans (((dat1 (V3 m ρ) c).arrAt_in 0 rfl _).trans (A_eq1 (V3 m ρ) c 0))
  by_cases h1 : b = main_arg5
  · subst h1
    exact (W4_arr m ρ c 1).trans (((dat1 (V3 m ρ) c).arrAt_in 1 rfl _).trans (A_eq1 (V3 m ρ) c 1))
  exact W4_of_ne m ρ c b (fun w => by
    match w with
    | ⟨0, _⟩ => exact fun e => h0 e.symm
    | ⟨1, _⟩ => exact fun e => h1 e.symm
    | ⟨2, _⟩ => exact fun e => hb e.symm)

/-- The output holds the product of the two inputs as they stood at the region's entry, weight first. -/
theorem out (c : Dev nD) :
    W4 m ρ c (no_index (Proc.devRef .tc main_v26))
      = mulf (F := Ideal) (s := S3840000) (φ := .f32) (W3 m ρ c (Proc.devRef .tc main_arg5)) (W3 m ρ c (Proc.devRef .tc main_v25)) :=
  (W4_arr m ρ c 2).trans (result_comm (V3 m ρ) c)

end Cert.KernelIdeal.Mul1

end
-- ==== Proof.Region2.lean ====
/-
  Region 2 has one grid point whose blocks are the whole arrays of 30000 floats: bias, recurrent input and
  feed-forward input. The body stores tanh((bias + rec) + agg) entrywise, so after the region the output array is
  that function of the three input arrays as the region found them. On the extended reals the body's tanh and the
  plain program's tanh are one function.
-/
import proofs.«428625_j39238821216886_1_alg».proof.Proof.Gen.KernelIdeal.Frame
import Idealize.ShloMosaic.Lib.Pipeline.Value
import Idealize.ShloMosaic.PureOps.Ideal

set_option maxRecDepth 16384

noncomputable section

namespace Cert.KernelIdeal.Act2

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem off_zero : (![0] : Fin 1 → Nat) = fun _ => 0 := funext fun a => by fin_cases a; rfl

/-- tanh of the sum of three arrays, grouped from the left, entry by entry. -/
abbrev act (a0 a1 a2 : S30000.Idx → Elt F .f32) : S30000.Idx → Elt F .f32 :=
  fun i => FloatOps.tanh (FloatOps.addf (FloatOps.addf (a0 i) (a1 i)) (a2 i))

/-- The body's one store holds tanh((x0 + x1) + x2) of its three loaded blocks (the casts between equal shapes
    are the identity). -/
theorem payload_eq (x0 x1 x2 : Vec F S30000 .f32) : k2_pay1 x0 x1 x2 = tanh (addf (addf x0 x1) x2) := by
  unfold k2_pay1
  simp only [shapeCast_self]

/-- At the one grid point every window sits on block 0. -/
theorem index_facts : ∀ t : Fin cfg2.N, win2_0.index t (0 : Fin 1) = 0 ∧ win2_1.index t (0 : Fin 1) = 0
    ∧ win2_2.index t (0 : Fin 1) = 0 ∧ win2_3.index t (0 : Fin 1) = 0 :=
  (by decide +kernel : ∀ t : Fin grid2.N, _)

/-- What the point writes back is its block of the function of the three input arrays. -/
theorem flushed_eq (c : Dev nD) (t : Fin cfg2.N) :
    (dat2 V c).flushed 3 t = ((cfg2.win 3).blk t).view.read (Elt F) (act (V c main_v30) (V c main_v31) (V c main_v29)) := by
  show (cfg2.win 3).cut (grid2.coords t) ((dat2 V c).after 3 t) = _
  rw [after2_3]
  unfold out2_3
  rw [View.canon_unit_zero off_zero]
  simp only [View.ld_unit_zero (S := S30000) off_zero]
  rw [payload_eq]
  obtain ⟨e0, e1, e2, e3⟩ := index_facts t
  funext j
  show FloatOps.tanh (FloatOps.addf (FloatOps.addf (V c main_v30 (((cfg2.win 0).blk t).view.emb j)) (V c main_v31 (((cfg2.win 1).blk t).view.emb j))) (V c main_v29 (((cfg2.win 2).blk t).view.emb j)))
    = FloatOps.tanh (FloatOps.addf (FloatOps.addf (V c main_v30 (((cfg2.win 3).blk t).view.emb j)) (V c main_v31 (((cfg2.win 3).blk t).view.emb j))) (V c main_v29 (((cfg2.win 3).blk t).view.emb j)))
  have h0 : ((cfg2.win 0).blk t).view.emb j = ((cfg2.win 3).blk t).view.emb j := by
    funext a; apply Fin.ext
    match a with
    | ⟨0, _⟩ => show win2_0.index t (0 : Fin 1) * 30000 + 1 * (j 0).val = win2_3.index t (0 : Fin 1) * 30000 + 1 * (j 0).val; omega
  have h1 : ((cfg2.win 1).blk t).view.emb j = ((cfg2.win 3).blk t).view.emb j := by
    funext a; apply Fin.ext
    match a with
    | ⟨0, _⟩ => show win2_1.index t (0 : Fin 1) * 30000 + 1 * (j 0).val = win2_3.index t (0 : Fin 1) * 30000 + 1 * (j 0).val; omega
  have h2 : ((cfg2.win 2).blk t).view.emb j = ((cfg2.win 3).blk t).view.emb j := by
    funext a; apply Fin.ext
    match a with
    | ⟨0, _⟩ => show win2_2.index t (0 : Fin 1) * 30000 + 1 * (j 0).val = win2_3.index t (0 : Fin 1) * 30000 + 1 * (j 0).val; omega
  rw [h0, h1, h2]

/-- An entry lies in the point's block exactly when it lies in that block's range. -/
theorem mem_block (t : Fin cfg2.N) (i : S30000.Idx) :
    i ∈ ((cfg2.win 3).blk t).view.set ↔ ∀ a : Fin 1, win2_3.index t a * S30000.size a ≤ (i a).val ∧ (i a).val < win2_3.index t a * S30000.size a + S30000.size a := by
  show i ∈ ((View.whole main_v32).slice (win2_3.rect t)).set ↔ _
  rw [View.set_slice_whole, Rect.mem_set_unit]
  exact Iff.rfl

/-- The one block is the whole array. -/
theorem covered (i : S30000.Idx) : ∃ t : Fin cfg2.N, (cfg2.win 3).flush t = true ∧ i ∈ ((cfg2.win 3).blk t).view.set := by
  have hi : (i 0).val < 30000 := (i 0).isLt
  refine ⟨t2_0, flush2_3 _, ?_⟩
  rw [mem_block]
  intro a
  obtain ⟨-, -, -, e3⟩ := index_facts t2_0
  match a with
  | ⟨0, _⟩ =>
    show win2_3.index _ (0 : Fin 1) * 30000 ≤ (i 0).val ∧ (i 0).val < win2_3.index _ (0 : Fin 1) * 30000 + 30000
    rw [e3]
    omega

/-- After the region the output array is tanh((bias + rec) + agg) of the input arrays as the region found them. -/
theorem result (c : Dev nD) : (dat2 V c).arrAt 3 cfg2.N = act (V c main_v30) (V c main_v31) (V c main_v29) :=
  (dat2 V c).arrAt_eq_of_cover 3 (act (V c main_v30) (V c main_v31) (V c main_v29)) (fun t _ => flushed_eq V c t) covered

end Cert.KernelIdeal.Act2

namespace Cert.KernelIdeal.Act2

open Cert.KernelIdeal Cert.KernelIdeal.Gen
open Idealize.ShloMosaic Idealize.ShloMosaic.TcCoe Idealize.SL.Sem

/-- On the extended reals the same array, written with the plain program's operations. -/
theorem result_host (V : (c : Dev nD) → (b : Ref sig .tc) → Buf (Elt Ideal) ((c : Thread nD τ).loc b)) (c : Dev nD) :
    (dat2 V c).arrAt 3 cfg2.N
      = Host.tanh (F := Ideal) (s := S30000) (φ := .f32) (addf (addf (V c main_v30) (V c main_v31)) (V c main_v29)) := by
  rw [result V c]
  funext i
  simp only [act, Host.tanh, addf, Ideal.tanh_def, Ideal.hostUnary_tanh_def]

end Cert.KernelIdeal.Act2

/-! ## The region as a step between two boundaries of the run -/

namespace Cert.KernelIdeal.Act2

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Across the region every buffer other than its output holds what it held: an input window's array is read,
    never written, and a buffer that is no window's array is not touched at all. -/
theorem keep (c : Dev nD) (b : Ref sig .tc) (hb : b ≠ main_v32) :
    W6 m ρ c (no_index (Proc.devRef .tc b)) = W5 m ρ c (Proc.devRef .tc b) := by
  by_cases h0 : b = main_v30
  · subst h0
    exact (W6_arr m ρ c 0).trans (((dat2 (V5 m ρ) c).arrAt_in 0 rfl _).trans (A_eq2 (V5 m ρ) c 0))
  by_cases h1 : b = main_v31
  · subst h1
    exact (W6_arr m ρ c 1).trans (((dat2 (V5 m ρ) c).arrAt_in 1 rfl _).trans (A_eq2 (V5 m ρ) c 1))
  by_cases h2 : b = main_v29
  · subst h2
    exact (W6_arr m ρ c 2).trans (((dat2 (V5 m ρ) c).arrAt_in 2 rfl _).trans (A_eq2 (V5 m ρ) c 2))
  exact W6_of_ne m ρ c b (fun w => by
    match w with
    | ⟨0, _⟩ => exact fun e => h0 e.symm
    | ⟨1, _⟩ => exact fun e => h1 e.symm
    | ⟨2, _⟩ => exact fun e => h2 e.symm
    | ⟨3, _⟩ => exact fun e => hb e.symm)

/-- The output holds tanh((bias + rec) + agg) of the three inputs as they stood at the region's entry. -/
theorem out (c : Dev nD) :
    W6 m ρ c (no_index (Proc.devRef .tc main_v32))
      = Host.tanh (F := Ideal) (s := S30000) (φ := .f32)
          (addf (addf (W5 m ρ c (Proc.devRef .tc main_v30)) (W5 m ρ c (Proc.devRef .tc main_v31))) (W5 m ρ c (Proc.devRef .tc main_v29))) :=
  (W6_arr m ρ c 3).trans (result_host (V5 m ρ) c)

end Cert.KernelIdeal.Act2

end
-- ==== Proof.Region3.lean ====
/-
  Region 3 multiplies two arrays of 3840000 floats block by block: 10 grid points, point t owning the
  384000 consecutive entries from t * 384000. Each point writes back the entrywise product of its two input
  blocks, the blocks tile the array, so after the region the output array is the entrywise product of the two
  input arrays as the region found them. On the extended reals the product commutes, which puts the result in
  the operand order the plain program uses (weight first).
-/
import proofs.«428625_j39238821216886_1_alg».proof.Proof.Gen.KernelIdeal.Frame
import Idealize.ShloMosaic.Lib.Pipeline.Value
import Idealize.ShloMosaic.PureOps.Ideal

set_option maxRecDepth 16384

noncomputable section

namespace Cert.KernelIdeal.Mul3

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem off_zero : (![0] : Fin 1 → Nat) = fun _ => 0 := funext fun a => by fin_cases a; rfl

/-- The entrywise product of two arrays. -/
abbrev prod (a0 a1 : S3840000.Idx → Elt F .f32) : S3840000.Idx → Elt F .f32 := fun i => FloatOps.mulf (a0 i) (a1 i)

/-- The body's one store holds the entrywise product of its two loaded blocks (the casts between equal shapes
    are the identity). -/
theorem payload_eq (x0 x1 : Vec F S384000 .f32) : k3_pay1 x0 x1 = mulf x0 x1 := by
  unfold k3_pay1
  simp only [shapeCast_self]

/-- At every grid point the three windows sit on the same block, the point's own number. -/
theorem index_facts : ∀ t : Fin cfg3.N, win3_0.index t (0 : Fin 1) = win3_2.index t (0 : Fin 1)
    ∧ win3_1.index t (0 : Fin 1) = win3_2.index t (0 : Fin 1)
    ∧ win3_2.index t (0 : Fin 1) = t.val :=
  (by decide +kernel : ∀ t : Fin grid3.N, _)

/-- What point t writes back is block t of the product of the two input arrays. -/
theorem flushed_eq (c : Dev nD) (t : Fin cfg3.N) :
    (dat3 V c).flushed 2 t = ((cfg3.win 2).blk t).view.read (Elt F) (prod (V c main_v41) (V c main_arg8)) := by
  show (cfg3.win 2).cut (grid3.coords t) ((dat3 V c).after 2 t) = _
  rw [after3_2]
  unfold out3_2
  rw [View.canon_unit_zero off_zero]
  simp only [View.ld_unit_zero (S := S384000) off_zero]
  rw [payload_eq]
  obtain ⟨e0, e1, e2⟩ := index_facts t
  funext j
  show FloatOps.mulf (V c main_v41 (((cfg3.win 0).blk t).view.emb j)) (V c main_arg8 (((cfg3.win 1).blk t).view.emb j))
    = FloatOps.mulf (V c main_v41 (((cfg3.win 2).blk t).view.emb j)) (V c main_arg8 (((cfg3.win 2).blk t).view.emb j))
  have h0 : ((cfg3.win 0).blk t).view.emb j = ((cfg3.win 2).blk t).view.emb j := by
    funext a; apply Fin.ext
    match a with
    | ⟨0, _⟩ => show win3_0.index t (0 : Fin 1) * 384000 + 1 * (j 0).val = win3_2.index t (0 : Fin 1) * 384000 + 1 * (j 0).val; omega
  have h1 : ((cfg3.win 1).blk t).view.emb j = ((cfg3.win 2).blk t).view.emb j := by
    funext a; apply Fin.ext
    match a with
    | ⟨0, _⟩ => show win3_1.index t (0 : Fin 1) * 384000 + 1 * (j 0).val = win3_2.index t (0 : Fin 1) * 384000 + 1 * (j 0).val; omega
  rw [h0, h1]

/-- An entry lies in point t's block exactly when it lies in that block's range. -/
theorem mem_block (t : Fin cfg3.N) (i : S3840000.Idx) :
    i ∈ ((cfg3.win 2).blk t).view.set ↔ ∀ a : Fin 1, win3_2.index t a * S384000.size a ≤ (i a).val ∧ (i a).val < win3_2.index t a * S384000.size a + S384000.size a := by
  show i ∈ ((View.whole main_v42).slice (win3_2.rect t)).set ↔ _
  rw [View.set_slice_whole, Rect.mem_set_unit]
  exact Iff.rfl

/-- Every entry of the array lies in the block of the point numbered by its quotient by the block length. -/
theorem covered (i : S3840000.Idx) : ∃ t : Fin cfg3.N, (cfg3.win 2).flush t = true ∧ i ∈ ((cfg3.win 2).blk t).view.set := by
  have hi : (i 0).val < 3840000 := (i 0).isLt
  have hN : cfg3.N = 10 := N_3
  refine ⟨⟨(i 0).val / 384000, by rw [hN]; omega⟩, flush3_2 _, ?_⟩
  rw [mem_block]
  intro a
  obtain ⟨-, -, e2⟩ := index_facts ⟨(i 0).val / 384000, by rw [hN]; omega⟩
  match a with
  | ⟨0, _⟩ =>
    show win3_2.index _ (0 : Fin 1) * 384000 ≤ (i 0).val ∧ (i 0).val < win3_2.index _ (0 : Fin 1) * 384000 + 384000
    rw [e2]
    show (i 0).val / 384000 * 384000 ≤ (i 0).val ∧ (i 0).val < (i 0).val / 384000 * 384000 + 384000
    omega

/-- After the region the output array is the entrywise product of the input arrays as the region found them. -/
theorem result (c : Dev nD) : (dat3 V c).arrAt 2 cfg3.N = prod (V c main_v41) (V c main_arg8) :=
  (dat3 V c).arrAt_eq_of_cover 2 (prod (V c main_v41) (V c main_arg8)) (fun t _ => flushed_eq V c t) covered

end Cert.KernelIdeal.Mul3

namespace Cert.KernelIdeal.Mul3

open Cert.KernelIdeal Cert.KernelIdeal.Gen
open Idealize.ShloMosaic Idealize.ShloMosaic.TcCoe Idealize.SL.Sem

/-- On the extended reals the same array is the product taken weight first. -/
theorem result_comm (V : (c : Dev nD) → (b : Ref sig .tc) → Buf (Elt Ideal) ((c : Thread nD τ).loc b)) (c : Dev nD) :
    (dat3 V c).arrAt 2 cfg3.N = mulf (F := Ideal) (s := S3840000) (φ := .f32) (V c main_arg8) (V c main_v41) := by
  rw [result V c]
  funext i
  simp only [prod, mulf, Ideal.mulf_def]
  exact mul_comm _ _

end Cert.KernelIdeal.Mul3

/-! ## The region as a step between two boundaries of the run -/

namespace Cert.KernelIdeal.Mul3

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Across the region every buffer other than its output holds what it held: an input window's array is read,
    never written, and a buffer that is no window's array is not touched at all. -/
theorem keep (c : Dev nD) (b : Ref sig .tc) (hb : b ≠ main_v42) :
    W8 m ρ c (no_index (Proc.devRef .tc b)) = W7 m ρ c (Proc.devRef .tc b) := by
  by_cases h0 : b = main_v41
  · subst h0
    exact (W8_arr m ρ c 0).trans (((dat3 (V7 m ρ) c).arrAt_in 0 rfl _).trans (A_eq3 (V7 m ρ) c 0))
  by_cases h1 : b = main_arg8
  · subst h1
    exact (W8_arr m ρ c 1).trans (((dat3 (V7 m ρ) c).arrAt_in 1 rfl _).trans (A_eq3 (V7 m ρ) c 1))
  exact W8_of_ne m ρ c b (fun w => by
    match w with
    | ⟨0, _⟩ => exact fun e => h0 e.symm
    | ⟨1, _⟩ => exact fun e => h1 e.symm
    | ⟨2, _⟩ => exact fun e => hb e.symm)

/-- The output holds the product of the two inputs as they stood at the region's entry, weight first. -/
theorem out (c : Dev nD) :
    W8 m ρ c (no_index (Proc.devRef .tc main_v42))
      = mulf (F := Ideal) (s := S3840000) (φ := .f32) (W7 m ρ c (Proc.devRef .tc main_arg8)) (W7 m ρ c (Proc.devRef .tc main_v41)) :=
  (W8_arr m ρ c 2).trans (result_comm (V7 m ρ) c)

end Cert.KernelIdeal.Mul3

end
-- ==== Proof.Region4.lean ====
/-
  Region 4 has one grid point whose blocks are the whole arrays of 30000 floats: bias, recurrent input and
  feed-forward input. The body stores tanh((bias + rec) + agg) entrywise, so after the region the output array is
  that function of the three input arrays as the region found them. On the extended reals the body's tanh and the
  plain program's tanh are one function.
-/
import proofs.«428625_j39238821216886_1_alg».proof.Proof.Gen.KernelIdeal.Frame
import Idealize.ShloMosaic.Lib.Pipeline.Value
import Idealize.ShloMosaic.PureOps.Ideal

set_option maxRecDepth 16384

noncomputable section

namespace Cert.KernelIdeal.Act4

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem off_zero : (![0] : Fin 1 → Nat) = fun _ => 0 := funext fun a => by fin_cases a; rfl

/-- tanh of the sum of three arrays, grouped from the left, entry by entry. -/
abbrev act (a0 a1 a2 : S30000.Idx → Elt F .f32) : S30000.Idx → Elt F .f32 :=
  fun i => FloatOps.tanh (FloatOps.addf (FloatOps.addf (a0 i) (a1 i)) (a2 i))

/-- The body's one store holds tanh((x0 + x1) + x2) of its three loaded blocks (the casts between equal shapes
    are the identity). -/
theorem payload_eq (x0 x1 x2 : Vec F S30000 .f32) : k4_pay1 x0 x1 x2 = tanh (addf (addf x0 x1) x2) := by
  unfold k4_pay1
  simp only [shapeCast_self]

/-- At the one grid point every window sits on block 0. -/
theorem index_facts : ∀ t : Fin cfg4.N, win4_0.index t (0 : Fin 1) = 0 ∧ win4_1.index t (0 : Fin 1) = 0
    ∧ win4_2.index t (0 : Fin 1) = 0 ∧ win4_3.index t (0 : Fin 1) = 0 :=
  (by decide +kernel : ∀ t : Fin grid4.N, _)

/-- What the point writes back is its block of the function of the three input arrays. -/
theorem flushed_eq (c : Dev nD) (t : Fin cfg4.N) :
    (dat4 V c).flushed 3 t = ((cfg4.win 3).blk t).view.read (Elt F) (act (V c main_v46) (V c main_v47) (V c main_v45)) := by
  show (cfg4.win 3).cut (grid4.coords t) ((dat4 V c).after 3 t) = _
  rw [after4_3]
  unfold out4_3
  rw [View.canon_unit_zero off_zero]
  simp only [View.ld_unit_zero (S := S30000) off_zero]
  rw [payload_eq]
  obtain ⟨e0, e1, e2, e3⟩ := index_facts t
  funext j
  show FloatOps.tanh (FloatOps.addf (FloatOps.addf (V c main_v46 (((cfg4.win 0).blk t).view.emb j)) (V c main_v47 (((cfg4.win 1).blk t).view.emb j))) (V c main_v45 (((cfg4.win 2).blk t).view.emb j)))
    = FloatOps.tanh (FloatOps.addf (FloatOps.addf (V c main_v46 (((cfg4.win 3).blk t).view.emb j)) (V c main_v47 (((cfg4.win 3).blk t).view.emb j))) (V c main_v45 (((cfg4.win 3).blk t).view.emb j)))
  have h0 : ((cfg4.win 0).blk t).view.emb j = ((cfg4.win 3).blk t).view.emb j := by
    funext a; apply Fin.ext
    match a with
    | ⟨0, _⟩ => show win4_0.index t (0 : Fin 1) * 30000 + 1 * (j 0).val = win4_3.index t (0 : Fin 1) * 30000 + 1 * (j 0).val; omega
  have h1 : ((cfg4.win 1).blk t).view.emb j = ((cfg4.win 3).blk t).view.emb j := by
    funext a; apply Fin.ext
    match a with
    | ⟨0, _⟩ => show win4_1.index t (0 : Fin 1) * 30000 + 1 * (j 0).val = win4_3.index t (0 : Fin 1) * 30000 + 1 * (j 0).val; omega
  have h2 : ((cfg4.win 2).blk t).view.emb j = ((cfg4.win 3).blk t).view.emb j := by
    funext a; apply Fin.ext
    match a with
    | ⟨0, _⟩ => show win4_2.index t (0 : Fin 1) * 30000 + 1 * (j 0).val = win4_3.index t (0 : Fin 1) * 30000 + 1 * (j 0).val; omega
  rw [h0, h1, h2]

/-- An entry lies in the point's block exactly when it lies in that block's range. -/
theorem mem_block (t : Fin cfg4.N) (i : S30000.Idx) :
    i ∈ ((cfg4.win 3).blk t).view.set ↔ ∀ a : Fin 1, win4_3.index t a * S30000.size a ≤ (i a).val ∧ (i a).val < win4_3.index t a * S30000.size a + S30000.size a := by
  show i ∈ ((View.whole main_v48).slice (win4_3.rect t)).set ↔ _
  rw [View.set_slice_whole, Rect.mem_set_unit]
  exact Iff.rfl

/-- The one block is the whole array. -/
theorem covered (i : S30000.Idx) : ∃ t : Fin cfg4.N, (cfg4.win 3).flush t = true ∧ i ∈ ((cfg4.win 3).blk t).view.set := by
  have hi : (i 0).val < 30000 := (i 0).isLt
  refine ⟨t4_0, flush4_3 _, ?_⟩
  rw [mem_block]
  intro a
  obtain ⟨-, -, -, e3⟩ := index_facts t4_0
  match a with
  | ⟨0, _⟩ =>
    show win4_3.index _ (0 : Fin 1) * 30000 ≤ (i 0).val ∧ (i 0).val < win4_3.index _ (0 : Fin 1) * 30000 + 30000
    rw [e3]
    omega

/-- After the region the output array is tanh((bias + rec) + agg) of the input arrays as the region found them. -/
theorem result (c : Dev nD) : (dat4 V c).arrAt 3 cfg4.N = act (V c main_v46) (V c main_v47) (V c main_v45) :=
  (dat4 V c).arrAt_eq_of_cover 3 (act (V c main_v46) (V c main_v47) (V c main_v45)) (fun t _ => flushed_eq V c t) covered

end Cert.KernelIdeal.Act4

namespace Cert.KernelIdeal.Act4

open Cert.KernelIdeal Cert.KernelIdeal.Gen
open Idealize.ShloMosaic Idealize.ShloMosaic.TcCoe Idealize.SL.Sem

/-- On the extended reals the same array, written with the plain program's operations. -/
theorem result_host (V : (c : Dev nD) → (b : Ref sig .tc) → Buf (Elt Ideal) ((c : Thread nD τ).loc b)) (c : Dev nD) :
    (dat4 V c).arrAt 3 cfg4.N
      = Host.tanh (F := Ideal) (s := S30000) (φ := .f32) (addf (addf (V c main_v46) (V c main_v47)) (V c main_v45)) := by
  rw [result V c]
  funext i
  simp only [act, Host.tanh, addf, Ideal.tanh_def, Ideal.hostUnary_tanh_def]

end Cert.KernelIdeal.Act4

/-! ## The region as a step between two boundaries of the run -/

namespace Cert.KernelIdeal.Act4

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Across the region every buffer other than its output holds what it held: an input window's array is read,
    never written, and a buffer that is no window's array is not touched at all. -/
theorem keep (c : Dev nD) (b : Ref sig .tc) (hb : b ≠ main_v48) :
    W10 m ρ c (no_index (Proc.devRef .tc b)) = W9 m ρ c (Proc.devRef .tc b) := by
  by_cases h0 : b = main_v46
  · subst h0
    exact (W10_arr m ρ c 0).trans (((dat4 (V9 m ρ) c).arrAt_in 0 rfl _).trans (A_eq4 (V9 m ρ) c 0))
  by_cases h1 : b = main_v47
  · subst h1
    exact (W10_arr m ρ c 1).trans (((dat4 (V9 m ρ) c).arrAt_in 1 rfl _).trans (A_eq4 (V9 m ρ) c 1))
  by_cases h2 : b = main_v45
  · subst h2
    exact (W10_arr m ρ c 2).trans (((dat4 (V9 m ρ) c).arrAt_in 2 rfl _).trans (A_eq4 (V9 m ρ) c 2))
  exact W10_of_ne m ρ c b (fun w => by
    match w with
    | ⟨0, _⟩ => exact fun e => h0 e.symm
    | ⟨1, _⟩ => exact fun e => h1 e.symm
    | ⟨2, _⟩ => exact fun e => h2 e.symm
    | ⟨3, _⟩ => exact fun e => hb e.symm)

/-- The output holds tanh((bias + rec) + agg) of the three inputs as they stood at the region's entry. -/
theorem out (c : Dev nD) :
    W10 m ρ c (no_index (Proc.devRef .tc main_v48))
      = Host.tanh (F := Ideal) (s := S30000) (φ := .f32)
          (addf (addf (W9 m ρ c (Proc.devRef .tc main_v46)) (W9 m ρ c (Proc.devRef .tc main_v47))) (W9 m ρ c (Proc.devRef .tc main_v45))) :=
  (W10_arr m ρ c 3).trans (result_host (V9 m ρ) c)

end Cert.KernelIdeal.Act4

end
-- ==== Proof.Region5.lean ====
/-
  Region 5 multiplies two arrays of 3840000 floats block by block: 10 grid points, point t owning the
  384000 consecutive entries from t * 384000. Each point writes back the entrywise product of its two input
  blocks, the blocks tile the array, so after the region the output array is the entrywise product of the two
  input arrays as the region found them. On the extended reals the product commutes, which puts the result in
  the operand order the plain program uses (weight first).
-/
import proofs.«428625_j39238821216886_1_alg».proof.Proof.Gen.KernelIdeal.Frame
import Idealize.ShloMosaic.Lib.Pipeline.Value
import Idealize.ShloMosaic.PureOps.Ideal

set_option maxRecDepth 16384

noncomputable section

namespace Cert.KernelIdeal.Mul5

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem off_zero : (![0] : Fin 1 → Nat) = fun _ => 0 := funext fun a => by fin_cases a; rfl

/-- The entrywise product of two arrays. -/
abbrev prod (a0 a1 : S3840000.Idx → Elt F .f32) : S3840000.Idx → Elt F .f32 := fun i => FloatOps.mulf (a0 i) (a1 i)

/-- The body's one store holds the entrywise product of its two loaded blocks (the casts between equal shapes
    are the identity). -/
theorem payload_eq (x0 x1 : Vec F S384000 .f32) : k5_pay1 x0 x1 = mulf x0 x1 := by
  unfold k5_pay1
  simp only [shapeCast_self]

/-- At every grid point the three windows sit on the same block, the point's own number. -/
theorem index_facts : ∀ t : Fin cfg5.N, win5_0.index t (0 : Fin 1) = win5_2.index t (0 : Fin 1)
    ∧ win5_1.index t (0 : Fin 1) = win5_2.index t (0 : Fin 1)
    ∧ win5_2.index t (0 : Fin 1) = t.val :=
  (by decide +kernel : ∀ t : Fin grid5.N, _)

/-- What point t writes back is block t of the product of the two input arrays. -/
theorem flushed_eq (c : Dev nD) (t : Fin cfg5.N) :
    (dat5 V c).flushed 2 t = ((cfg5.win 2).blk t).view.read (Elt F) (prod (V c main_v57) (V c main_arg11)) := by
  show (cfg5.win 2).cut (grid5.coords t) ((dat5 V c).after 2 t) = _
  rw [after5_2]
  unfold out5_2
  rw [View.canon_unit_zero off_zero]
  simp only [View.ld_unit_zero (S := S384000) off_zero]
  rw [payload_eq]
  obtain ⟨e0, e1, e2⟩ := index_facts t
  funext j
  show FloatOps.mulf (V c main_v57 (((cfg5.win 0).blk t).view.emb j)) (V c main_arg11 (((cfg5.win 1).blk t).view.emb j))
    = FloatOps.mulf (V c main_v57 (((cfg5.win 2).blk t).view.emb j)) (V c main_arg11 (((cfg5.win 2).blk t).view.emb j))
  have h0 : ((cfg5.win 0).blk t).view.emb j = ((cfg5.win 2).blk t).view.emb j := by
    funext a; apply Fin.ext
    match a with
    | ⟨0, _⟩ => show win5_0.index t (0 : Fin 1) * 384000 + 1 * (j 0).val = win5_2.index t (0 : Fin 1) * 384000 + 1 * (j 0).val; omega
  have h1 : ((cfg5.win 1).blk t).view.emb j = ((cfg5.win 2).blk t).view.emb j := by
    funext a; apply Fin.ext
    match a with
    | ⟨0, _⟩ => show win5_1.index t (0 : Fin 1) * 384000 + 1 * (j 0).val = win5_2.index t (0 : Fin 1) * 384000 + 1 * (j 0).val; omega
  rw [h0, h1]

/-- An entry lies in point t's block exactly when it lies in that block's range. -/
theorem mem_block (t : Fin cfg5.N) (i : S3840000.Idx) :
    i ∈ ((cfg5.win 2).blk t).view.set ↔ ∀ a : Fin 1, win5_2.index t a * S384000.size a ≤ (i a).val ∧ (i a).val < win5_2.index t a * S384000.size a + S384000.size a := by
  show i ∈ ((View.whole main_v58).slice (win5_2.rect t)).set ↔ _
  rw [View.set_slice_whole, Rect.mem_set_unit]
  exact Iff.rfl

/-- Every entry of the array lies in the block of the point numbered by its quotient by the block length. -/
theorem covered (i : S3840000.Idx) : ∃ t : Fin cfg5.N, (cfg5.win 2).flush t = true ∧ i ∈ ((cfg5.win 2).blk t).view.set := by
  have hi : (i 0).val < 3840000 := (i 0).isLt
  have hN : cfg5.N = 10 := N_5
  refine ⟨⟨(i 0).val / 384000, by rw [hN]; omega⟩, flush5_2 _, ?_⟩
  rw [mem_block]
  intro a
  obtain ⟨-, -, e2⟩ := index_facts ⟨(i 0).val / 384000, by rw [hN]; omega⟩
  match a with
  | ⟨0, _⟩ =>
    show win5_2.index _ (0 : Fin 1) * 384000 ≤ (i 0).val ∧ (i 0).val < win5_2.index _ (0 : Fin 1) * 384000 + 384000
    rw [e2]
    show (i 0).val / 384000 * 384000 ≤ (i 0).val ∧ (i 0).val < (i 0).val / 384000 * 384000 + 384000
    omega

/-- After the region the output array is the entrywise product of the input arrays as the region found them. -/
theorem result (c : Dev nD) : (dat5 V c).arrAt 2 cfg5.N = prod (V c main_v57) (V c main_arg11) :=
  (dat5 V c).arrAt_eq_of_cover 2 (prod (V c main_v57) (V c main_arg11)) (fun t _ => flushed_eq V c t) covered

end Cert.KernelIdeal.Mul5

namespace Cert.KernelIdeal.Mul5

open Cert.KernelIdeal Cert.KernelIdeal.Gen
open Idealize.ShloMosaic Idealize.ShloMosaic.TcCoe Idealize.SL.Sem

/-- On the extended reals the same array is the product taken weight first. -/
theorem result_comm (V : (c : Dev nD) → (b : Ref sig .tc) → Buf (Elt Ideal) ((c : Thread nD τ).loc b)) (c : Dev nD) :
    (dat5 V c).arrAt 2 cfg5.N = mulf (F := Ideal) (s := S3840000) (φ := .f32) (V c main_arg11) (V c main_v57) := by
  rw [result V c]
  funext i
  simp only [prod, mulf, Ideal.mulf_def]
  exact mul_comm _ _

end Cert.KernelIdeal.Mul5

/-! ## The region as a step between two boundaries of the run -/

namespace Cert.KernelIdeal.Mul5

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Across the region every buffer other than its output holds what it held: an input window's array is read,
    never written, and a buffer that is no window's array is not touched at all. -/
theorem keep (c : Dev nD) (b : Ref sig .tc) (hb : b ≠ main_v58) :
    W12 m ρ c (no_index (Proc.devRef .tc b)) = W11 m ρ c (Proc.devRef .tc b) := by
  by_cases h0 : b = main_v57
  · subst h0
    exact (W12_arr m ρ c 0).trans (((dat5 (V11 m ρ) c).arrAt_in 0 rfl _).trans (A_eq5 (V11 m ρ) c 0))
  by_cases h1 : b = main_arg11
  · subst h1
    exact (W12_arr m ρ c 1).trans (((dat5 (V11 m ρ) c).arrAt_in 1 rfl _).trans (A_eq5 (V11 m ρ) c 1))
  exact W12_of_ne m ρ c b (fun w => by
    match w with
    | ⟨0, _⟩ => exact fun e => h0 e.symm
    | ⟨1, _⟩ => exact fun e => h1 e.symm
    | ⟨2, _⟩ => exact fun e => hb e.symm)

/-- The output holds the product of the two inputs as they stood at the region's entry, weight first. -/
theorem out (c : Dev nD) :
    W12 m ρ c (no_index (Proc.devRef .tc main_v58))
      = mulf (F := Ideal) (s := S3840000) (φ := .f32) (W11 m ρ c (Proc.devRef .tc main_arg11)) (W11 m ρ c (Proc.devRef .tc main_v57)) :=
  (W12_arr m ρ c 2).trans (result_comm (V11 m ρ) c)

end Cert.KernelIdeal.Mul5

end
-- ==== Proof.Region6.lean ====
/-
  Region 6 has one grid point whose blocks are the whole arrays of 30000 floats: bias, recurrent input and
  feed-forward input. The body stores tanh((bias + rec) + agg) entrywise, so after the region the output array is
  that function of the three input arrays as the region found them. On the extended reals the body's tanh and the
  plain program's tanh are one function.
-/
import proofs.«428625_j39238821216886_1_alg».proof.Proof.Gen.KernelIdeal.Frame
import Idealize.ShloMosaic.Lib.Pipeline.Value
import Idealize.ShloMosaic.PureOps.Ideal

set_option maxRecDepth 16384

noncomputable section

namespace Cert.KernelIdeal.Act6

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem off_zero : (![0] : Fin 1 → Nat) = fun _ => 0 := funext fun a => by fin_cases a; rfl

/-- tanh of the sum of three arrays, grouped from the left, entry by entry. -/
abbrev act (a0 a1 a2 : S30000.Idx → Elt F .f32) : S30000.Idx → Elt F .f32 :=
  fun i => FloatOps.tanh (FloatOps.addf (FloatOps.addf (a0 i) (a1 i)) (a2 i))

/-- The body's one store holds tanh((x0 + x1) + x2) of its three loaded blocks (the casts between equal shapes
    are the identity). -/
theorem payload_eq (x0 x1 x2 : Vec F S30000 .f32) : k6_pay1 x0 x1 x2 = tanh (addf (addf x0 x1) x2) := by
  unfold k6_pay1
  simp only [shapeCast_self]

/-- At the one grid point every window sits on block 0. -/
theorem index_facts : ∀ t : Fin cfg6.N, win6_0.index t (0 : Fin 1) = 0 ∧ win6_1.index t (0 : Fin 1) = 0
    ∧ win6_2.index t (0 : Fin 1) = 0 ∧ win6_3.index t (0 : Fin 1) = 0 :=
  (by decide +kernel : ∀ t : Fin grid6.N, _)

/-- What the point writes back is its block of the function of the three input arrays. -/
theorem flushed_eq (c : Dev nD) (t : Fin cfg6.N) :
    (dat6 V c).flushed 3 t = ((cfg6.win 3).blk t).view.read (Elt F) (act (V c main_v62) (V c main_v63) (V c main_v61)) := by
  show (cfg6.win 3).cut (grid6.coords t) ((dat6 V c).after 3 t) = _
  rw [after6_3]
  unfold out6_3
  rw [View.canon_unit_zero off_zero]
  simp only [View.ld_unit_zero (S := S30000) off_zero]
  rw [payload_eq]
  obtain ⟨e0, e1, e2, e3⟩ := index_facts t
  funext j
  show FloatOps.tanh (FloatOps.addf (FloatOps.addf (V c main_v62 (((cfg6.win 0).blk t).view.emb j)) (V c main_v63 (((cfg6.win 1).blk t).view.emb j))) (V c main_v61 (((cfg6.win 2).blk t).view.emb j)))
    = FloatOps.tanh (FloatOps.addf (FloatOps.addf (V c main_v62 (((cfg6.win 3).blk t).view.emb j)) (V c main_v63 (((cfg6.win 3).blk t).view.emb j))) (V c main_v61 (((cfg6.win 3).blk t).view.emb j)))
  have h0 : ((cfg6.win 0).blk t).view.emb j = ((cfg6.win 3).blk t).view.emb j := by
    funext a; apply Fin.ext
    match a with
    | ⟨0, _⟩ => show win6_0.index t (0 : Fin 1) * 30000 + 1 * (j 0).val = win6_3.index t (0 : Fin 1) * 30000 + 1 * (j 0).val; omega
  have h1 : ((cfg6.win 1).blk t).view.emb j = ((cfg6.win 3).blk t).view.emb j := by
    funext a; apply Fin.ext
    match a with
    | ⟨0, _⟩ => show win6_1.index t (0 : Fin 1) * 30000 + 1 * (j 0).val = win6_3.index t (0 : Fin 1) * 30000 + 1 * (j 0).val; omega
  have h2 : ((cfg6.win 2).blk t).view.emb j = ((cfg6.win 3).blk t).view.emb j := by
    funext a; apply Fin.ext
    match a with
    | ⟨0, _⟩ => show win6_2.index t (0 : Fin 1) * 30000 + 1 * (j 0).val = win6_3.index t (0 : Fin 1) * 30000 + 1 * (j 0).val; omega
  rw [h0, h1, h2]

/-- An entry lies in the point's block exactly when it lies in that block's range. -/
theorem mem_block (t : Fin cfg6.N) (i : S30000.Idx) :
    i ∈ ((cfg6.win 3).blk t).view.set ↔ ∀ a : Fin 1, win6_3.index t a * S30000.size a ≤ (i a).val ∧ (i a).val < win6_3.index t a * S30000.size a + S30000.size a := by
  show i ∈ ((View.whole main_v64).slice (win6_3.rect t)).set ↔ _
  rw [View.set_slice_whole, Rect.mem_set_unit]
  exact Iff.rfl

/-- The one block is the whole array. -/
theorem covered (i : S30000.Idx) : ∃ t : Fin cfg6.N, (cfg6.win 3).flush t = true ∧ i ∈ ((cfg6.win 3).blk t).view.set := by
  have hi : (i 0).val < 30000 := (i 0).isLt
  refine ⟨t6_0, flush6_3 _, ?_⟩
  rw [mem_block]
  intro a
  obtain ⟨-, -, -, e3⟩ := index_facts t6_0
  match a with
  | ⟨0, _⟩ =>
    show win6_3.index _ (0 : Fin 1) * 30000 ≤ (i 0).val ∧ (i 0).val < win6_3.index _ (0 : Fin 1) * 30000 + 30000
    rw [e3]
    omega

/-- After the region the output array is tanh((bias + rec) + agg) of the input arrays as the region found them. -/
theorem result (c : Dev nD) : (dat6 V c).arrAt 3 cfg6.N = act (V c main_v62) (V c main_v63) (V c main_v61) :=
  (dat6 V c).arrAt_eq_of_cover 3 (act (V c main_v62) (V c main_v63) (V c main_v61)) (fun t _ => flushed_eq V c t) covered

end Cert.KernelIdeal.Act6

namespace Cert.KernelIdeal.Act6

open Cert.KernelIdeal Cert.KernelIdeal.Gen
open Idealize.ShloMosaic Idealize.ShloMosaic.TcCoe Idealize.SL.Sem

/-- On the extended reals the same array, written with the plain program's operations. -/
theorem result_host (V : (c : Dev nD) → (b : Ref sig .tc) → Buf (Elt Ideal) ((c : Thread nD τ).loc b)) (c : Dev nD) :
    (dat6 V c).arrAt 3 cfg6.N
      = Host.tanh (F := Ideal) (s := S30000) (φ := .f32) (addf (addf (V c main_v62) (V c main_v63)) (V c main_v61)) := by
  rw [result V c]
  funext i
  simp only [act, Host.tanh, addf, Ideal.tanh_def, Ideal.hostUnary_tanh_def]

end Cert.KernelIdeal.Act6

/-! ## The region as a step between two boundaries of the run -/

namespace Cert.KernelIdeal.Act6

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Across the region every buffer other than its output holds what it held: an input window's array is read,
    never written, and a buffer that is no window's array is not touched at all. -/
theorem keep (c : Dev nD) (b : Ref sig .tc) (hb : b ≠ main_v64) :
    W14 m ρ c (no_index (Proc.devRef .tc b)) = W13 m ρ c (Proc.devRef .tc b) := by
  by_cases h0 : b = main_v62
  · subst h0
    exact (W14_arr m ρ c 0).trans (((dat6 (V13 m ρ) c).arrAt_in 0 rfl _).trans (A_eq6 (V13 m ρ) c 0))
  by_cases h1 : b = main_v63
  · subst h1
    exact (W14_arr m ρ c 1).trans (((dat6 (V13 m ρ) c).arrAt_in 1 rfl _).trans (A_eq6 (V13 m ρ) c 1))
  by_cases h2 : b = main_v61
  · subst h2
    exact (W14_arr m ρ c 2).trans (((dat6 (V13 m ρ) c).arrAt_in 2 rfl _).trans (A_eq6 (V13 m ρ) c 2))
  exact W14_of_ne m ρ c b (fun w => by
    match w with
    | ⟨0, _⟩ => exact fun e => h0 e.symm
    | ⟨1, _⟩ => exact fun e => h1 e.symm
    | ⟨2, _⟩ => exact fun e => h2 e.symm
    | ⟨3, _⟩ => exact fun e => hb e.symm)

/-- The output holds tanh((bias + rec) + agg) of the three inputs as they stood at the region's entry. -/
theorem out (c : Dev nD) :
    W14 m ρ c (no_index (Proc.devRef .tc main_v64))
      = Host.tanh (F := Ideal) (s := S30000) (φ := .f32)
          (addf (addf (W13 m ρ c (Proc.devRef .tc main_v62)) (W13 m ρ c (Proc.devRef .tc main_v63))) (W13 m ρ c (Proc.devRef .tc main_v61))) :=
  (W14_arr m ρ c 3).trans (result_host (V13 m ρ) c)

end Cert.KernelIdeal.Act6

end
-- ==== Proof.Region7.lean ====
/-
  Region 7 multiplies two arrays of 3840000 floats block by block: 10 grid points, point t owning the
  384000 consecutive entries from t * 384000. Each point writes back the entrywise product of its two input
  blocks, the blocks tile the array, so after the region the output array is the entrywise product of the two
  input arrays as the region found them. On the extended reals the product commutes, which puts the result in
  the operand order the plain program uses (weight first).
-/
import proofs.«428625_j39238821216886_1_alg».proof.Proof.Gen.KernelIdeal.Frame
import Idealize.ShloMosaic.Lib.Pipeline.Value
import Idealize.ShloMosaic.PureOps.Ideal

set_option maxRecDepth 16384

noncomputable section

namespace Cert.KernelIdeal.Mul7

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem off_zero : (![0] : Fin 1 → Nat) = fun _ => 0 := funext fun a => by fin_cases a; rfl

/-- The entrywise product of two arrays. -/
abbrev prod (a0 a1 : S3840000.Idx → Elt F .f32) : S3840000.Idx → Elt F .f32 := fun i => FloatOps.mulf (a0 i) (a1 i)

/-- The body's one store holds the entrywise product of its two loaded blocks (the casts between equal shapes
    are the identity). -/
theorem payload_eq (x0 x1 : Vec F S384000 .f32) : k7_pay1 x0 x1 = mulf x0 x1 := by
  unfold k7_pay1
  simp only [shapeCast_self]

/-- At every grid point the three windows sit on the same block, the point's own number. -/
theorem index_facts : ∀ t : Fin cfg7.N, win7_0.index t (0 : Fin 1) = win7_2.index t (0 : Fin 1)
    ∧ win7_1.index t (0 : Fin 1) = win7_2.index t (0 : Fin 1)
    ∧ win7_2.index t (0 : Fin 1) = t.val :=
  (by decide +kernel : ∀ t : Fin grid7.N, _)

/-- What point t writes back is block t of the product of the two input arrays. -/
theorem flushed_eq (c : Dev nD) (t : Fin cfg7.N) :
    (dat7 V c).flushed 2 t = ((cfg7.win 2).blk t).view.read (Elt F) (prod (V c main_v73) (V c main_arg14)) := by
  show (cfg7.win 2).cut (grid7.coords t) ((dat7 V c).after 2 t) = _
  rw [after7_2]
  unfold out7_2
  rw [View.canon_unit_zero off_zero]
  simp only [View.ld_unit_zero (S := S384000) off_zero]
  rw [payload_eq]
  obtain ⟨e0, e1, e2⟩ := index_facts t
  funext j
  show FloatOps.mulf (V c main_v73 (((cfg7.win 0).blk t).view.emb j)) (V c main_arg14 (((cfg7.win 1).blk t).view.emb j))
    = FloatOps.mulf (V c main_v73 (((cfg7.win 2).blk t).view.emb j)) (V c main_arg14 (((cfg7.win 2).blk t).view.emb j))
  have h0 : ((cfg7.win 0).blk t).view.emb j = ((cfg7.win 2).blk t).view.emb j := by
    funext a; apply Fin.ext
    match a with
    | ⟨0, _⟩ => show win7_0.index t (0 : Fin 1) * 384000 + 1 * (j 0).val = win7_2.index t (0 : Fin 1) * 384000 + 1 * (j 0).val; omega
  have h1 : ((cfg7.win 1).blk t).view.emb j = ((cfg7.win 2).blk t).view.emb j := by
    funext a; apply Fin.ext
    match a with
    | ⟨0, _⟩ => show win7_1.index t (0 : Fin 1) * 384000 + 1 * (j 0).val = win7_2.index t (0 : Fin 1) * 384000 + 1 * (j 0).val; omega
  rw [h0, h1]

/-- An entry lies in point t's block exactly when it lies in that block's range. -/
theorem mem_block (t : Fin cfg7.N) (i : S3840000.Idx) :
    i ∈ ((cfg7.win 2).blk t).view.set ↔ ∀ a : Fin 1, win7_2.index t a * S384000.size a ≤ (i a).val ∧ (i a).val < win7_2.index t a * S384000.size a + S384000.size a := by
  show i ∈ ((View.whole main_v74).slice (win7_2.rect t)).set ↔ _
  rw [View.set_slice_whole, Rect.mem_set_unit]
  exact Iff.rfl

/-- Every entry of the array lies in the block of the point numbered by its quotient by the block length. -/
theorem covered (i : S3840000.Idx) : ∃ t : Fin cfg7.N, (cfg7.win 2).flush t = true ∧ i ∈ ((cfg7.win 2).blk t).view.set := by
  have hi : (i 0).val < 3840000 := (i 0).isLt
  have hN : cfg7.N = 10 := N_7
  refine ⟨⟨(i 0).val / 384000, by rw [hN]; omega⟩, flush7_2 _, ?_⟩
  rw [mem_block]
  intro a
  obtain ⟨-, -, e2⟩ := index_facts ⟨(i 0).val / 384000, by rw [hN]; omega⟩
  match a with
  | ⟨0, _⟩ =>
    show win7_2.index _ (0 : Fin 1) * 384000 ≤ (i 0).val ∧ (i 0).val < win7_2.index _ (0 : Fin 1) * 384000 + 384000
    rw [e2]
    show (i 0).val / 384000 * 384000 ≤ (i 0).val ∧ (i 0).val < (i 0).val / 384000 * 384000 + 384000
    omega

/-- After the region the output array is the entrywise product of the input arrays as the region found them. -/
theorem result (c : Dev nD) : (dat7 V c).arrAt 2 cfg7.N = prod (V c main_v73) (V c main_arg14) :=
  (dat7 V c).arrAt_eq_of_cover 2 (prod (V c main_v73) (V c main_arg14)) (fun t _ => flushed_eq V c t) covered

end Cert.KernelIdeal.Mul7

namespace Cert.KernelIdeal.Mul7

open Cert.KernelIdeal Cert.KernelIdeal.Gen
open Idealize.ShloMosaic Idealize.ShloMosaic.TcCoe Idealize.SL.Sem

/-- On the extended reals the same array is the product taken weight first. -/
theorem result_comm (V : (c : Dev nD) → (b : Ref sig .tc) → Buf (Elt Ideal) ((c : Thread nD τ).loc b)) (c : Dev nD) :
    (dat7 V c).arrAt 2 cfg7.N = mulf (F := Ideal) (s := S3840000) (φ := .f32) (V c main_arg14) (V c main_v73) := by
  rw [result V c]
  funext i
  simp only [prod, mulf, Ideal.mulf_def]
  exact mul_comm _ _

end Cert.KernelIdeal.Mul7

/-! ## The region as a step between two boundaries of the run -/

namespace Cert.KernelIdeal.Mul7

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Across the region every buffer other than its output holds what it held: an input window's array is read,
    never written, and a buffer that is no window's array is not touched at all. -/
theorem keep (c : Dev nD) (b : Ref sig .tc) (hb : b ≠ main_v74) :
    W16 m ρ c (no_index (Proc.devRef .tc b)) = W15 m ρ c (Proc.devRef .tc b) := by
  by_cases h0 : b = main_v73
  · subst h0
    exact (W16_arr m ρ c 0).trans (((dat7 (V15 m ρ) c).arrAt_in 0 rfl _).trans (A_eq7 (V15 m ρ) c 0))
  by_cases h1 : b = main_arg14
  · subst h1
    exact (W16_arr m ρ c 1).trans (((dat7 (V15 m ρ) c).arrAt_in 1 rfl _).trans (A_eq7 (V15 m ρ) c 1))
  exact W16_of_ne m ρ c b (fun w => by
    match w with
    | ⟨0, _⟩ => exact fun e => h0 e.symm
    | ⟨1, _⟩ => exact fun e => h1 e.symm
    | ⟨2, _⟩ => exact fun e => hb e.symm)

/-- The output holds the product of the two inputs as they stood at the region's entry, weight first. -/
theorem out (c : Dev nD) :
    W16 m ρ c (no_index (Proc.devRef .tc main_v74))
      = mulf (F := Ideal) (s := S3840000) (φ := .f32) (W15 m ρ c (Proc.devRef .tc main_arg14)) (W15 m ρ c (Proc.devRef .tc main_v73)) :=
  (W16_arr m ρ c 2).trans (result_comm (V15 m ρ) c)

end Cert.KernelIdeal.Mul7

end
-- ==== Proof.Region8.lean ====
/-
  Region 8 has one grid point whose blocks are the whole arrays of 30000 floats: bias, recurrent input and
  feed-forward input. The body stores tanh((bias + rec) + agg) entrywise, so after the region the output array is
  that function of the three input arrays as the region found them. On the extended reals the body's tanh and the
  plain program's tanh are one function.
-/
import proofs.«428625_j39238821216886_1_alg».proof.Proof.Gen.KernelIdeal.Frame
import Idealize.ShloMosaic.Lib.Pipeline.Value
import Idealize.ShloMosaic.PureOps.Ideal

set_option maxRecDepth 16384

noncomputable section

namespace Cert.KernelIdeal.Act8

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem off_zero : (![0] : Fin 1 → Nat) = fun _ => 0 := funext fun a => by fin_cases a; rfl

/-- tanh of the sum of three arrays, grouped from the left, entry by entry. -/
abbrev act (a0 a1 a2 : S30000.Idx → Elt F .f32) : S30000.Idx → Elt F .f32 :=
  fun i => FloatOps.tanh (FloatOps.addf (FloatOps.addf (a0 i) (a1 i)) (a2 i))

/-- The body's one store holds tanh((x0 + x1) + x2) of its three loaded blocks (the casts between equal shapes
    are the identity). -/
theorem payload_eq (x0 x1 x2 : Vec F S30000 .f32) : k8_pay1 x0 x1 x2 = tanh (addf (addf x0 x1) x2) := by
  unfold k8_pay1
  simp only [shapeCast_self]

/-- At the one grid point every window sits on block 0. -/
theorem index_facts : ∀ t : Fin cfg8.N, win8_0.index t (0 : Fin 1) = 0 ∧ win8_1.index t (0 : Fin 1) = 0
    ∧ win8_2.index t (0 : Fin 1) = 0 ∧ win8_3.index t (0 : Fin 1) = 0 :=
  (by decide +kernel : ∀ t : Fin grid8.N, _)

/-- What the point writes back is its block of the function of the three input arrays. -/
theorem flushed_eq (c : Dev nD) (t : Fin cfg8.N) :
    (dat8 V c).flushed 3 t = ((cfg8.win 3).blk t).view.read (Elt F) (act (V c main_v78) (V c main_v79) (V c main_v77)) := by
  show (cfg8.win 3).cut (grid8.coords t) ((dat8 V c).after 3 t) = _
  rw [after8_3]
  unfold out8_3
  rw [View.canon_unit_zero off_zero]
  simp only [View.ld_unit_zero (S := S30000) off_zero]
  rw [payload_eq]
  obtain ⟨e0, e1, e2, e3⟩ := index_facts t
  funext j
  show FloatOps.tanh (FloatOps.addf (FloatOps.addf (V c main_v78 (((cfg8.win 0).blk t).view.emb j)) (V c main_v79 (((cfg8.win 1).blk t).view.emb j))) (V c main_v77 (((cfg8.win 2).blk t).view.emb j)))
    = FloatOps.tanh (FloatOps.addf (FloatOps.addf (V c main_v78 (((cfg8.win 3).blk t).view.emb j)) (V c main_v79 (((cfg8.win 3).blk t).view.emb j))) (V c main_v77 (((cfg8.win 3).blk t).view.emb j)))
  have h0 : ((cfg8.win 0).blk t).view.emb j = ((cfg8.win 3).blk t).view.emb j := by
    funext a; apply Fin.ext
    match a with
    | ⟨0, _⟩ => show win8_0.index t (0 : Fin 1) * 30000 + 1 * (j 0).val = win8_3.index t (0 : Fin 1) * 30000 + 1 * (j 0).val; omega
  have h1 : ((cfg8.win 1).blk t).view.emb j = ((cfg8.win 3).blk t).view.emb j := by
    funext a; apply Fin.ext
    match a with
    | ⟨0, _⟩ => show win8_1.index t (0 : Fin 1) * 30000 + 1 * (j 0).val = win8_3.index t (0 : Fin 1) * 30000 + 1 * (j 0).val; omega
  have h2 : ((cfg8.win 2).blk t).view.emb j = ((cfg8.win 3).blk t).view.emb j := by
    funext a; apply Fin.ext
    match a with
    | ⟨0, _⟩ => show win8_2.index t (0 : Fin 1) * 30000 + 1 * (j 0).val = win8_3.index t (0 : Fin 1) * 30000 + 1 * (j 0).val; omega
  rw [h0, h1, h2]

/-- An entry lies in the point's block exactly when it lies in that block's range. -/
theorem mem_block (t : Fin cfg8.N) (i : S30000.Idx) :
    i ∈ ((cfg8.win 3).blk t).view.set ↔ ∀ a : Fin 1, win8_3.index t a * S30000.size a ≤ (i a).val ∧ (i a).val < win8_3.index t a * S30000.size a + S30000.size a := by
  show i ∈ ((View.whole main_v80).slice (win8_3.rect t)).set ↔ _
  rw [View.set_slice_whole, Rect.mem_set_unit]
  exact Iff.rfl

/-- The one block is the whole array. -/
theorem covered (i : S30000.Idx) : ∃ t : Fin cfg8.N, (cfg8.win 3).flush t = true ∧ i ∈ ((cfg8.win 3).blk t).view.set := by
  have hi : (i 0).val < 30000 := (i 0).isLt
  refine ⟨t8_0, flush8_3 _, ?_⟩
  rw [mem_block]
  intro a
  obtain ⟨-, -, -, e3⟩ := index_facts t8_0
  match a with
  | ⟨0, _⟩ =>
    show win8_3.index _ (0 : Fin 1) * 30000 ≤ (i 0).val ∧ (i 0).val < win8_3.index _ (0 : Fin 1) * 30000 + 30000
    rw [e3]
    omega

/-- After the region the output array is tanh((bias + rec) + agg) of the input arrays as the region found them. -/
theorem result (c : Dev nD) : (dat8 V c).arrAt 3 cfg8.N = act (V c main_v78) (V c main_v79) (V c main_v77) :=
  (dat8 V c).arrAt_eq_of_cover 3 (act (V c main_v78) (V c main_v79) (V c main_v77)) (fun t _ => flushed_eq V c t) covered

end Cert.KernelIdeal.Act8

namespace Cert.KernelIdeal.Act8

open Cert.KernelIdeal Cert.KernelIdeal.Gen
open Idealize.ShloMosaic Idealize.ShloMosaic.TcCoe Idealize.SL.Sem

/-- On the extended reals the same array, written with the plain program's operations. -/
theorem result_host (V : (c : Dev nD) → (b : Ref sig .tc) → Buf (Elt Ideal) ((c : Thread nD τ).loc b)) (c : Dev nD) :
    (dat8 V c).arrAt 3 cfg8.N
      = Host.tanh (F := Ideal) (s := S30000) (φ := .f32) (addf (addf (V c main_v78) (V c main_v79)) (V c main_v77)) := by
  rw [result V c]
  funext i
  simp only [act, Host.tanh, addf, Ideal.tanh_def, Ideal.hostUnary_tanh_def]

end Cert.KernelIdeal.Act8

/-! ## The region as a step between two boundaries of the run -/

namespace Cert.KernelIdeal.Act8

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Across the region every buffer other than its output holds what it held: an input window's array is read,
    never written, and a buffer that is no window's array is not touched at all. -/
theorem keep (c : Dev nD) (b : Ref sig .tc) (hb : b ≠ main_v80) :
    W18 m ρ c (no_index (Proc.devRef .tc b)) = W17 m ρ c (Proc.devRef .tc b) := by
  by_cases h0 : b = main_v78
  · subst h0
    exact (W18_arr m ρ c 0).trans (((dat8 (V17 m ρ) c).arrAt_in 0 rfl _).trans (A_eq8 (V17 m ρ) c 0))
  by_cases h1 : b = main_v79
  · subst h1
    exact (W18_arr m ρ c 1).trans (((dat8 (V17 m ρ) c).arrAt_in 1 rfl _).trans (A_eq8 (V17 m ρ) c 1))
  by_cases h2 : b = main_v77
  · subst h2
    exact (W18_arr m ρ c 2).trans (((dat8 (V17 m ρ) c).arrAt_in 2 rfl _).trans (A_eq8 (V17 m ρ) c 2))
  exact W18_of_ne m ρ c b (fun w => by
    match w with
    | ⟨0, _⟩ => exact fun e => h0 e.symm
    | ⟨1, _⟩ => exact fun e => h1 e.symm
    | ⟨2, _⟩ => exact fun e => h2 e.symm
    | ⟨3, _⟩ => exact fun e => hb e.symm)

/-- The output holds tanh((bias + rec) + agg) of the three inputs as they stood at the region's entry. -/
theorem out (c : Dev nD) :
    W18 m ρ c (no_index (Proc.devRef .tc main_v80))
      = Host.tanh (F := Ideal) (s := S30000) (φ := .f32)
          (addf (addf (W17 m ρ c (Proc.devRef .tc main_v78)) (W17 m ρ c (Proc.devRef .tc main_v79))) (W17 m ρ c (Proc.devRef .tc main_v77))) :=
  (W18_arr m ρ c 3).trans (result_host (V17 m ρ) c)

end Cert.KernelIdeal.Act8

end
-- ==== Proof.Region9.lean ====
/-
  Region 9 multiplies two arrays of 128000 floats block by block: 5 grid points, point t owning the
  25600 consecutive entries from t * 25600. Each point writes back the entrywise product of its two input
  blocks, the blocks tile the array, so after the region the output array is the entrywise product of the two
  input arrays as the region found them. On the extended reals the product commutes, which puts the result in
  the operand order the plain program uses (weight first).
-/
import proofs.«428625_j39238821216886_1_alg».proof.Proof.Gen.KernelIdeal.Frame
import Idealize.ShloMosaic.Lib.Pipeline.Value
import Idealize.ShloMosaic.PureOps.Ideal

set_option maxRecDepth 16384

noncomputable section

namespace Cert.KernelIdeal.Mul9

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem off_zero : (![0] : Fin 1 → Nat) = fun _ => 0 := funext fun a => by fin_cases a; rfl

/-- The entrywise product of two arrays. -/
abbrev prod (a0 a1 : S128000.Idx → Elt F .f32) : S128000.Idx → Elt F .f32 := fun i => FloatOps.mulf (a0 i) (a1 i)

/-- The body's one store holds the entrywise product of its two loaded blocks (the casts between equal shapes
    are the identity). -/
theorem payload_eq (x0 x1 : Vec F S25600 .f32) : k9_pay1 x0 x1 = mulf x0 x1 := by
  unfold k9_pay1
  simp only [shapeCast_self]

/-- At every grid point the three windows sit on the same block, the point's own number. -/
theorem index_facts : ∀ t : Fin cfg9.N, win9_0.index t (0 : Fin 1) = win9_2.index t (0 : Fin 1)
    ∧ win9_1.index t (0 : Fin 1) = win9_2.index t (0 : Fin 1)
    ∧ win9_2.index t (0 : Fin 1) = t.val :=
  (by decide +kernel : ∀ t : Fin grid9.N, _)

/-- What point t writes back is block t of the product of the two input arrays. -/
theorem flushed_eq (c : Dev nD) (t : Fin cfg9.N) :
    (dat9 V c).flushed 2 t = ((cfg9.win 2).blk t).view.read (Elt F) (prod (V c main_v89) (V c main_arg17)) := by
  show (cfg9.win 2).cut (grid9.coords t) ((dat9 V c).after 2 t) = _
  rw [after9_2]
  unfold out9_2
  rw [View.canon_unit_zero off_zero]
  simp only [View.ld_unit_zero (S := S25600) off_zero]
  rw [payload_eq]
  obtain ⟨e0, e1, e2⟩ := index_facts t
  funext j
  show FloatOps.mulf (V c main_v89 (((cfg9.win 0).blk t).view.emb j)) (V c main_arg17 (((cfg9.win 1).blk t).view.emb j))
    = FloatOps.mulf (V c main_v89 (((cfg9.win 2).blk t).view.emb j)) (V c main_arg17 (((cfg9.win 2).blk t).view.emb j))
  have h0 : ((cfg9.win 0).blk t).view.emb j = ((cfg9.win 2).blk t).view.emb j := by
    funext a; apply Fin.ext
    match a with
    | ⟨0, _⟩ => show win9_0.index t (0 : Fin 1) * 25600 + 1 * (j 0).val = win9_2.index t (0 : Fin 1) * 25600 + 1 * (j 0).val; omega
  have h1 : ((cfg9.win 1).blk t).view.emb j = ((cfg9.win 2).blk t).view.emb j := by
    funext a; apply Fin.ext
    match a with
    | ⟨0, _⟩ => show win9_1.index t (0 : Fin 1) * 25600 + 1 * (j 0).val = win9_2.index t (0 : Fin 1) * 25600 + 1 * (j 0).val; omega
  rw [h0, h1]

/-- An entry lies in point t's block exactly when it lies in that block's range. -/
theorem mem_block (t : Fin cfg9.N) (i : S128000.Idx) :
    i ∈ ((cfg9.win 2).blk t).view.set ↔ ∀ a : Fin 1, win9_2.index t a * S25600.size a ≤ (i a).val ∧ (i a).val < win9_2.index t a * S25600.size a + S25600.size a := by
  show i ∈ ((View.whole main_v90).slice (win9_2.rect t)).set ↔ _
  rw [View.set_slice_whole, Rect.mem_set_unit]
  exact Iff.rfl

/-- Every entry of the array lies in the block of the point numbered by its quotient by the block length. -/
theorem covered (i : S128000.Idx) : ∃ t : Fin cfg9.N, (cfg9.win 2).flush t = true ∧ i ∈ ((cfg9.win 2).blk t).view.set := by
  have hi : (i 0).val < 128000 := (i 0).isLt
  have hN : cfg9.N = 5 := N_9
  refine ⟨⟨(i 0).val / 25600, by rw [hN]; omega⟩, flush9_2 _, ?_⟩
  rw [mem_block]
  intro a
  obtain ⟨-, -, e2⟩ := index_facts ⟨(i 0).val / 25600, by rw [hN]; omega⟩
  match a with
  | ⟨0, _⟩ =>
    show win9_2.index _ (0 : Fin 1) * 25600 ≤ (i 0).val ∧ (i 0).val < win9_2.index _ (0 : Fin 1) * 25600 + 25600
    rw [e2]
    show (i 0).val / 25600 * 25600 ≤ (i 0).val ∧ (i 0).val < (i 0).val / 25600 * 25600 + 25600
    omega

/-- After the region the output array is the entrywise product of the input arrays as the region found them. -/
theorem result (c : Dev nD) : (dat9 V c).arrAt 2 cfg9.N = prod (V c main_v89) (V c main_arg17) :=
  (dat9 V c).arrAt_eq_of_cover 2 (prod (V c main_v89) (V c main_arg17)) (fun t _ => flushed_eq V c t) covered

end Cert.KernelIdeal.Mul9

namespace Cert.KernelIdeal.Mul9

open Cert.KernelIdeal Cert.KernelIdeal.Gen
open Idealize.ShloMosaic Idealize.ShloMosaic.TcCoe Idealize.SL.Sem

/-- On the extended reals the same array is the product taken weight first. -/
theorem result_comm (V : (c : Dev nD) → (b : Ref sig .tc) → Buf (Elt Ideal) ((c : Thread nD τ).loc b)) (c : Dev nD) :
    (dat9 V c).arrAt 2 cfg9.N = mulf (F := Ideal) (s := S128000) (φ := .f32) (V c main_arg17) (V c main_v89) := by
  rw [result V c]
  funext i
  simp only [prod, mulf, Ideal.mulf_def]
  exact mul_comm _ _

end Cert.KernelIdeal.Mul9

/-! ## The region as a step between two boundaries of the run -/

namespace Cert.KernelIdeal.Mul9

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Across the region every buffer other than its output holds what it held: an input window's array is read,
    never written, and a buffer that is no window's array is not touched at all. -/
theorem keep (c : Dev nD) (b : Ref sig .tc) (hb : b ≠ main_v90) :
    W20 m ρ c (no_index (Proc.devRef .tc b)) = W19 m ρ c (Proc.devRef .tc b) := by
  by_cases h0 : b = main_v89
  · subst h0
    exact (W20_arr m ρ c 0).trans (((dat9 (V19 m ρ) c).arrAt_in 0 rfl _).trans (A_eq9 (V19 m ρ) c 0))
  by_cases h1 : b = main_arg17
  · subst h1
    exact (W20_arr m ρ c 1).trans (((dat9 (V19 m ρ) c).arrAt_in 1 rfl _).trans (A_eq9 (V19 m ρ) c 1))
  exact W20_of_ne m ρ c b (fun w => by
    match w with
    | ⟨0, _⟩ => exact fun e => h0 e.symm
    | ⟨1, _⟩ => exact fun e => h1 e.symm
    | ⟨2, _⟩ => exact fun e => hb e.symm)

/-- The output holds the product of the two inputs as they stood at the region's entry, weight first. -/
theorem out (c : Dev nD) :
    W20 m ρ c (no_index (Proc.devRef .tc main_v90))
      = mulf (F := Ideal) (s := S128000) (φ := .f32) (W19 m ρ c (Proc.devRef .tc main_arg17)) (W19 m ρ c (Proc.devRef .tc main_v89)) :=
  (W20_arr m ρ c 2).trans (result_comm (V19 m ρ) c)

end Cert.KernelIdeal.Mul9

end
-- ==== Proof.Region10.lean ====
/-
  Region 10 has one grid point whose blocks are the whole arrays of 1000 floats: bias, recurrent input and
  feed-forward input. The body stores tanh((bias + rec) + agg) entrywise, so after the region the output array is
  that function of the three input arrays as the region found them. On the extended reals the body's tanh and the
  plain program's tanh are one function.
-/
import proofs.«428625_j39238821216886_1_alg».proof.Proof.Gen.KernelIdeal.Frame
import Idealize.ShloMosaic.Lib.Pipeline.Value
import Idealize.ShloMosaic.PureOps.Ideal

set_option maxRecDepth 16384

noncomputable section

namespace Cert.KernelIdeal.Act10

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem off_zero : (![0] : Fin 1 → Nat) = fun _ => 0 := funext fun a => by fin_cases a; rfl

/-- tanh of the sum of three arrays, grouped from the left, entry by entry. -/
abbrev act (a0 a1 a2 : S1000.Idx → Elt F .f32) : S1000.Idx → Elt F .f32 :=
  fun i => FloatOps.tanh (FloatOps.addf (FloatOps.addf (a0 i) (a1 i)) (a2 i))

/-- The body's one store holds tanh((x0 + x1) + x2) of its three loaded blocks (the casts between equal shapes
    are the identity). -/
theorem payload_eq (x0 x1 x2 : Vec F S1000 .f32) : k10_pay1 x0 x1 x2 = tanh (addf (addf x0 x1) x2) := by
  unfold k10_pay1
  simp only [shapeCast_self]

/-- At the one grid point every window sits on block 0. -/
theorem index_facts : ∀ t : Fin cfg10.N, win10_0.index t (0 : Fin 1) = 0 ∧ win10_1.index t (0 : Fin 1) = 0
    ∧ win10_2.index t (0 : Fin 1) = 0 ∧ win10_3.index t (0 : Fin 1) = 0 :=
  (by decide +kernel : ∀ t : Fin grid10.N, _)

/-- What the point writes back is its block of the function of the three input arrays. -/
theorem flushed_eq (c : Dev nD) (t : Fin cfg10.N) :
    (dat10 V c).flushed 3 t = ((cfg10.win 3).blk t).view.read (Elt F) (act (V c main_v94) (V c main_v95) (V c main_v93)) := by
  show (cfg10.win 3).cut (grid10.coords t) ((dat10 V c).after 3 t) = _
  rw [after10_3]
  unfold out10_3
  rw [View.canon_unit_zero off_zero]
  simp only [View.ld_unit_zero (S := S1000) off_zero]
  rw [payload_eq]
  obtain ⟨e0, e1, e2, e3⟩ := index_facts t
  funext j
  show FloatOps.tanh (FloatOps.addf (FloatOps.addf (V c main_v94 (((cfg10.win 0).blk t).view.emb j)) (V c main_v95 (((cfg10.win 1).blk t).view.emb j))) (V c main_v93 (((cfg10.win 2).blk t).view.emb j)))
    = FloatOps.tanh (FloatOps.addf (FloatOps.addf (V c main_v94 (((cfg10.win 3).blk t).view.emb j)) (V c main_v95 (((cfg10.win 3).blk t).view.emb j))) (V c main_v93 (((cfg10.win 3).blk t).view.emb j)))
  have h0 : ((cfg10.win 0).blk t).view.emb j = ((cfg10.win 3).blk t).view.emb j := by
    funext a; apply Fin.ext
    match a with
    | ⟨0, _⟩ => show win10_0.index t (0 : Fin 1) * 1000 + 1 * (j 0).val = win10_3.index t (0 : Fin 1) * 1000 + 1 * (j 0).val; omega
  have h1 : ((cfg10.win 1).blk t).view.emb j = ((cfg10.win 3).blk t).view.emb j := by
    funext a; apply Fin.ext
    match a with
    | ⟨0, _⟩ => show win10_1.index t (0 : Fin 1) * 1000 + 1 * (j 0).val = win10_3.index t (0 : Fin 1) * 1000 + 1 * (j 0).val; omega
  have h2 : ((cfg10.win 2).blk t).view.emb j = ((cfg10.win 3).blk t).view.emb j := by
    funext a; apply Fin.ext
    match a with
    | ⟨0, _⟩ => show win10_2.index t (0 : Fin 1) * 1000 + 1 * (j 0).val = win10_3.index t (0 : Fin 1) * 1000 + 1 * (j 0).val; omega
  rw [h0, h1, h2]

/-- An entry lies in the point's block exactly when it lies in that block's range. -/
theorem mem_block (t : Fin cfg10.N) (i : S1000.Idx) :
    i ∈ ((cfg10.win 3).blk t).view.set ↔ ∀ a : Fin 1, win10_3.index t a * S1000.size a ≤ (i a).val ∧ (i a).val < win10_3.index t a * S1000.size a + S1000.size a := by
  show i ∈ ((View.whole main_v96).slice (win10_3.rect t)).set ↔ _
  rw [View.set_slice_whole, Rect.mem_set_unit]
  exact Iff.rfl

/-- The one block is the whole array. -/
theorem covered (i : S1000.Idx) : ∃ t : Fin cfg10.N, (cfg10.win 3).flush t = true ∧ i ∈ ((cfg10.win 3).blk t).view.set := by
  have hi : (i 0).val < 1000 := (i 0).isLt
  refine ⟨t10_0, flush10_3 _, ?_⟩
  rw [mem_block]
  intro a
  obtain ⟨-, -, -, e3⟩ := index_facts t10_0
  match a with
  | ⟨0, _⟩ =>
    show win10_3.index _ (0 : Fin 1) * 1000 ≤ (i 0).val ∧ (i 0).val < win10_3.index _ (0 : Fin 1) * 1000 + 1000
    rw [e3]
    omega

/-- After the region the output array is tanh((bias + rec) + agg) of the input arrays as the region found them. -/
theorem result (c : Dev nD) : (dat10 V c).arrAt 3 cfg10.N = act (V c main_v94) (V c main_v95) (V c main_v93) :=
  (dat10 V c).arrAt_eq_of_cover 3 (act (V c main_v94) (V c main_v95) (V c main_v93)) (fun t _ => flushed_eq V c t) covered

end Cert.KernelIdeal.Act10

namespace Cert.KernelIdeal.Act10

open Cert.KernelIdeal Cert.KernelIdeal.Gen
open Idealize.ShloMosaic Idealize.ShloMosaic.TcCoe Idealize.SL.Sem

/-- On the extended reals the same array, written with the plain program's operations. -/
theorem result_host (V : (c : Dev nD) → (b : Ref sig .tc) → Buf (Elt Ideal) ((c : Thread nD τ).loc b)) (c : Dev nD) :
    (dat10 V c).arrAt 3 cfg10.N
      = Host.tanh (F := Ideal) (s := S1000) (φ := .f32) (addf (addf (V c main_v94) (V c main_v95)) (V c main_v93)) := by
  rw [result V c]
  funext i
  simp only [act, Host.tanh, addf, Ideal.tanh_def, Ideal.hostUnary_tanh_def]

end Cert.KernelIdeal.Act10

/-! ## The region as a step between two boundaries of the run -/

namespace Cert.KernelIdeal.Act10

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Across the region every buffer other than its output holds what it held: an input window's array is read,
    never written, and a buffer that is no window's array is not touched at all. -/
theorem keep (c : Dev nD) (b : Ref sig .tc) (hb : b ≠ main_v96) :
    W22 m ρ c (no_index (Proc.devRef .tc b)) = W21 m ρ c (Proc.devRef .tc b) := by
  by_cases h0 : b = main_v94
  · subst h0
    exact (W22_arr m ρ c 0).trans (((dat10 (V21 m ρ) c).arrAt_in 0 rfl _).trans (A_eq10 (V21 m ρ) c 0))
  by_cases h1 : b = main_v95
  · subst h1
    exact (W22_arr m ρ c 1).trans (((dat10 (V21 m ρ) c).arrAt_in 1 rfl _).trans (A_eq10 (V21 m ρ) c 1))
  by_cases h2 : b = main_v93
  · subst h2
    exact (W22_arr m ρ c 2).trans (((dat10 (V21 m ρ) c).arrAt_in 2 rfl _).trans (A_eq10 (V21 m ρ) c 2))
  exact W22_of_ne m ρ c b (fun w => by
    match w with
    | ⟨0, _⟩ => exact fun e => h0 e.symm
    | ⟨1, _⟩ => exact fun e => h1 e.symm
    | ⟨2, _⟩ => exact fun e => h2 e.symm
    | ⟨3, _⟩ => exact fun e => hb e.symm)

/-- The output holds tanh((bias + rec) + agg) of the three inputs as they stood at the region's entry. -/
theorem out (c : Dev nD) :
    W22 m ρ c (no_index (Proc.devRef .tc main_v96))
      = Host.tanh (F := Ideal) (s := S1000) (φ := .f32)
          (addf (addf (W21 m ρ c (Proc.devRef .tc main_v94)) (W21 m ρ c (Proc.devRef .tc main_v95))) (W21 m ρ c (Proc.devRef .tc main_v93))) :=
  (W22_arr m ρ c 3).trans (result_host (V21 m ρ) c)

end Cert.KernelIdeal.Act10

end
-- ==== Proof.Pad.lean ====
/-
  The recurrent stream is multiplied after both factors have been extended by 96 000 zeros to a whole number of
  blocks, and the product is then cut back to its first 4 000 000 entries. Cutting an extended array back gives
  the array itself, and a cut of an entrywise product is the product of the cuts, so the tail never matters.
-/
import proofs.«428625_j39238821216886_1_alg».proof.KernelIdeal
import Idealize.ShloMosaic.Lib.Pipeline.Value
import Idealize.ShloMosaic.Lib.LayoutPointwise

set_option maxRecDepth 16384

noncomputable section

namespace Cert.KernelIdeal.Pad

open Cert.KernelIdeal Idealize.ShloMosaic

/-- The first 4 000 000 entries of an array followed by a tail are the array. -/
theorem cut_extended {α : Type} (x : S4000000.Idx → α) (z : S96000.Idx → α)
    (hc : Shape.Concatenates [S4000000, S96000] S4096000 0) (hs : S4096000.Slices ![0] S4000000) :
    extractStridedSlice S4000000 ![0] (concatenate S4096000 0 [⟨S4000000, x⟩, ⟨S96000, z⟩] hc) hs = x := by
  funext j
  show concatenate S4096000 0 [⟨S4000000, x⟩, ⟨S96000, z⟩] hc
      (fun a => ⟨(![0] : Fin 1 → Nat) a + (j (a.cast hs.1.symm)).val,
        Nat.lt_of_lt_of_le (Nat.add_lt_add_left (j _).isLt _) (hs.2 a)⟩) = x j
  refine concatenate_pair_apply_left (0 : Fin S4096000.rank) x z hc _ rfl j (fun b => ?_)
  match b with
  | ⟨0, _⟩ => show (j 0).val = 0 + (j 0).val; omega

/-- The product of two extended arrays, cut back, is the product of the arrays. -/
theorem cut_product {F : FTy → Type} [FloatOps F] (x y : FVec F S4000000 .f32) (z z' : FVec F S96000 .f32)
    (hc : Shape.Concatenates [S4000000, S96000] S4096000 0) (hs : S4096000.Slices ![0] S4000000) :
    extractStridedSlice S4000000 ![0]
        (mulf (concatenate S4096000 0 [⟨S4000000, x⟩, ⟨S96000, z⟩] hc) (concatenate S4096000 0 [⟨S4000000, y⟩, ⟨S96000, z'⟩] hc)) hs
      = mulf x y := by
  rw [extractStridedSlice_mulf, cut_extended, cut_extended]

end Cert.KernelIdeal.Pad

end
-- ==== Proof.Spec.lean ====
/-
  The network's forward pass as one function of the 21 argument arrays. Neurons are numbered 0 to 130999: 10000
  inputs, four hidden levels of 30000 and 1000 outputs. Recurrent edges read last step's values: each carries
  weight times the source's history value and every non-input neuron sums what arrives (`recur`). The current
  values start as the observations followed by zeros; each level in turn takes, per neuron, tanh of bias plus
  recurrent input plus the weighted sum over its feed-forward edges of the sources' current values, and is written
  at its place (`level30000`, `level1000`). The result is the output level's 1000 values. Gathers and
  scatter-adds are the host operations themselves: nothing here depends on what they do at an index.
-/
import proofs.«428625_j39238821216886_1_alg».proof.KernelIdeal
import proofs.«428625_j39238821216886_1_alg».proof.Proof.Gen.KernelIdeal

noncomputable section

namespace Cert.KernelIdeal.Spec

open Cert.KernelIdeal Cert.KernelIdeal.Gen Idealize.ShloMosaic

variable {F : FTy → Type} [FloatOps F]

/-- The contents of a buffer of a given shape and element type. -/
abbrev A (s : Shape) (e : EltTy) : Type := (⟨s, e⟩ : BufTy).Contents (Elt F)

/-- An index array as a column of start indices, a negative entry first moved up by the table's length 131000
    (numpy's wrap-around for negative indices). -/
def wrap4000000 (i : A (F := F) S4000000 .i32) : A (F := F) S4000000x1 .i32 :=
  broadcastInDim S4000000x1 ![0] bcast_S4000000_S4000000x1_0
    (select (cmpi .slt i (broadcastInDim S4000000 ![] bcast_S_S4000000 (constantI S_ 32 0#32)))
      (addi i (broadcastInDim S4000000 ![] bcast_S_S4000000 (constantI S_ 32 131000#32))) i)

/-- An index array as a column of start indices, a negative entry first moved up by the table's length 131000
    (numpy's wrap-around for negative indices). -/
def wrap3840000 (i : A (F := F) S3840000 .i32) : A (F := F) S3840000x1 .i32 :=
  broadcastInDim S3840000x1 ![0] bcast_S3840000_S3840000x1_0
    (select (cmpi .slt i (broadcastInDim S3840000 ![] bcast_S_S3840000 (constantI S_ 32 0#32)))
      (addi i (broadcastInDim S3840000 ![] bcast_S_S3840000 (constantI S_ 32 131000#32))) i)

/-- An index array as a column of start indices, a negative entry first moved up by the table's length 131000
    (numpy's wrap-around for negative indices). -/
def wrap128000 (i : A (F := F) S128000 .i32) : A (F := F) S128000x1 .i32 :=
  broadcastInDim S128000x1 ![0] bcast_S128000_S128000x1_0
    (select (cmpi .slt i (broadcastInDim S128000 ![] bcast_S_S128000 (constantI S_ 32 0#32)))
      (addi i (broadcastInDim S128000 ![] bcast_S_S128000 (constantI S_ 32 131000#32))) i)

/-- The recurrent input of the 121000 non-input neurons: weight times the source's history value, summed per target. -/
def recur (hist : A (F := F) S131000 .f32) (src dst : A (F := F) S4000000 .i32) (w : A (F := F) S4000000 .f32) : A (F := F) S121000 .f32 :=
  Host.scatterAdd scatter_S121000_S4000000x1_S4000000_n_0_0_1 (broadcastInDim S121000 ![] bcast_S_S121000 (constant S_ .f32 0x00000000#32))
    (broadcastInDim S4000000x1 ![0] bcast_S4000000_S4000000x1_0 dst)
    (mulf w (Host.gather gather_S131000_S4000000x1_S4000000_n_0_n_n_0_1_1 hist (wrap4000000 src)))

/-- The current values before any level has run: the observations at the inputs' places, zero elsewhere. -/
def start (obs : A (F := F) S10000 .f32) : A (F := F) S131000 .f32 :=
  Host.scatter scatter_S131000_S1_S10000_0_n_0_0 (fun _ b => b) (broadcastInDim S131000 ![] bcast_S_S131000 (constant S_ .f32 0x00000000#32))
    (broadcastInDim S1 ![] bcast_S_S1 (constantI S_ 32 0#32)) obs

/-- One level's feed-forward input: every edge carries its weight times its source's current value, and each
    target sums what its edges carry (30000 targets, 3840000 edges). -/
def agg30000 (cur : A (F := F) S131000 .f32) (src dst : A (F := F) S3840000 .i32) (w : A (F := F) S3840000 .f32) : A (F := F) S30000 .f32 :=
  Host.scatterAdd scatter_S30000_S3840000x1_S3840000_n_0_0_1 (broadcastInDim S30000 ![] bcast_S_S30000 (constant S_ .f32 0x00000000#32))
    (broadcastInDim S3840000x1 ![0] bcast_S3840000_S3840000x1_0 dst)
    (mulf w (Host.gather gather_S131000_S3840000x1_S3840000_n_0_n_n_0_1_1 cur (wrap3840000 src)))

/-- One level's feed-forward input: every edge carries its weight times its source's current value, and each
    target sums what its edges carry (1000 targets, 128000 edges). -/
def agg1000 (cur : A (F := F) S131000 .f32) (src dst : A (F := F) S128000 .i32) (w : A (F := F) S128000 .f32) : A (F := F) S1000 .f32 :=
  Host.scatterAdd scatter_S1000_S128000x1_S128000_n_0_0_1 (broadcastInDim S1000 ![] bcast_S_S1000 (constant S_ .f32 0x00000000#32))
    (broadcastInDim S128000x1 ![0] bcast_S128000_S128000x1_0 dst)
    (mulf w (Host.gather gather_S131000_S128000x1_S128000_n_0_n_n_0_1_1 cur (wrap128000 src)))

/-- A level of 30000 neurons: tanh of bias plus recurrent input plus feed-forward input, written into the
    current values at the level's place. -/
def level30000 (cur : A (F := F) S131000 .f32) (bias rec : A (F := F) S121000 .f32) (lo : Nat) (hs : S121000.Slices ![lo] S30000)
    (at_ : BitVec 32) (src dst : A (F := F) S3840000 .i32) (w : A (F := F) S3840000 .f32) : A (F := F) S131000 .f32 :=
  Host.scatter scatter_S131000_S1_S30000_0_n_0_0 (fun _ b => b) cur (broadcastInDim S1 ![] bcast_S_S1 (constantI S_ 32 at_))
    (Host.tanh (addf (addf (extractStridedSlice S30000 ![lo] bias hs) (extractStridedSlice S30000 ![lo] rec hs)) (agg30000 cur src dst w)))

/-- A level of 1000 neurons: tanh of bias plus recurrent input plus feed-forward input, written into the
    current values at the level's place. -/
def level1000 (cur : A (F := F) S131000 .f32) (bias rec : A (F := F) S121000 .f32) (lo : Nat) (hs : S121000.Slices ![lo] S1000)
    (at_ : BitVec 32) (src dst : A (F := F) S128000 .i32) (w : A (F := F) S128000 .f32) : A (F := F) S131000 .f32 :=
  Host.scatter scatter_S131000_S1_S1000_0_n_0_0 (fun _ b => b) cur (broadcastInDim S1 ![] bcast_S_S1 (constantI S_ 32 at_))
    (Host.tanh (addf (addf (extractStridedSlice S1000 ![lo] bias hs) (extractStridedSlice S1000 ![lo] rec hs)) (agg1000 cur src dst w)))

/-- The forward pass: the four hidden levels and the output level in order, then the output level's values. -/
def forward (obs : A (F := F) S10000 .f32) (hist : A (F := F) S131000 .f32) (bias : A (F := F) S121000 .f32)
    (s1 d1 : A (F := F) S3840000 .i32) (w1 : A (F := F) S3840000 .f32) (s2 d2 : A (F := F) S3840000 .i32) (w2 : A (F := F) S3840000 .f32)
    (s3 d3 : A (F := F) S3840000 .i32) (w3 : A (F := F) S3840000 .f32) (s4 d4 : A (F := F) S3840000 .i32) (w4 : A (F := F) S3840000 .f32)
    (s5 d5 : A (F := F) S128000 .i32) (w5 : A (F := F) S128000 .f32)
    (rs rd : A (F := F) S4000000 .i32) (rw : A (F := F) S4000000 .f32) : A (F := F) S1000 .f32 :=
  let rec_ := recur hist rs rd rw
  let c1 := level30000 (start obs) bias rec_ 0 slices_S121000_S30000_0 10000#32 s1 d1 w1
  let c2 := level30000 c1 bias rec_ 30000 slices_S121000_S30000_30000 40000#32 s2 d2 w2
  let c3 := level30000 c2 bias rec_ 60000 slices_S121000_S30000_60000 70000#32 s3 d3 w3
  let c4 := level30000 c3 bias rec_ 90000 slices_S121000_S30000_90000 100000#32 s4 d4 w4
  let c5 := level1000 c4 bias rec_ 120000 slices_S121000_S1000_120000 130000#32 s5 d5 w5
  extractStridedSlice S1000 ![130000] c5 slices_S131000_S1000_130000

end Cert.KernelIdeal.Spec

end
-- ==== Proof.Chain.lean ====
/-
  The kernel program's result buffer, read back through the whole run. Between the launch memory and the return
  lie twelve stretches of host operations and eleven regions. A host operation rewrites its own result buffer
  and leaves every other; a region rewrites its output array with the product (weight first) or the
  tanh of the three-term sum of its inputs as they stood at its entry and leaves every other buffer. Reading the
  result buffer back one step at a time therefore ends at an expression in the launch contents of the 21
  arguments alone, and that expression is the forward pass: the recurrent stream's zero padding is cut away
  again before it is summed, so it never shows.
-/
import proofs.«428625_j39238821216886_1_alg».proof.Proof.Region0
import proofs.«428625_j39238821216886_1_alg».proof.Proof.Region1
import proofs.«428625_j39238821216886_1_alg».proof.Proof.Region2
import proofs.«428625_j39238821216886_1_alg».proof.Proof.Region3
import proofs.«428625_j39238821216886_1_alg».proof.Proof.Region4
import proofs.«428625_j39238821216886_1_alg».proof.Proof.Region5
import proofs.«428625_j39238821216886_1_alg».proof.Proof.Region6
import proofs.«428625_j39238821216886_1_alg».proof.Proof.Region7
import proofs.«428625_j39238821216886_1_alg».proof.Proof.Region8
import proofs.«428625_j39238821216886_1_alg».proof.Proof.Region9
import proofs.«428625_j39238821216886_1_alg».proof.Proof.Region10
import proofs.«428625_j39238821216886_1_alg».proof.Proof.Pad
import proofs.«428625_j39238821216886_1_alg».proof.Proof.Spec
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

set_option maxHeartbeats 8000000 in
/-- At the return the result buffer holds the forward pass of the launch contents of the arguments. -/
theorem result_value (c : Dev nD) :
    W23 m ρ c (Proc.devRef .tc main_v99)
      = Spec.forward (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)) (m ((c : Thread nD τ).loc main_arg20)) := by
  simp (disch := decide) only [StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne', StableHlo.quaternary_result_ne',
      StableHlo.reshape_result_ne', StableHlo.nary_result_ne', StableHlo.unaryIndexed_result_ne', StableHlo.binaryIndexed_result_ne',
      Mul0.keep, Mul0.out, Mul1.keep, Mul1.out, Act2.keep, Act2.out, Mul3.keep, Mul3.out, Act4.keep, Act4.out, Mul5.keep, Mul5.out,
      Act6.keep, Act6.out, Mul7.keep, Mul7.out, Act8.keep, Act8.out, Mul9.keep, Mul9.out, Act10.keep, Act10.out, Pad.cut_product]
  rfl

end Cert.KernelIdeal.Chain

end
-- ==== Proof.RefBridge.lean ====
/-
  The plain program is a straight line of host operations, and its result, composed back to its arguments, is the
  same forward pass: the same gathers, products (weight first), scatter-adds, tanh of the three-term sums and
  writes, in the same order. The two programs name their shape side conditions separately; these are
  propositions about the same literal shapes, so the terms agree as they stand.
-/
import proofs.«428625_j39238821216886_1_alg».proof.Proof.Gen.ReferenceIdeal.Run
import proofs.«428625_j39238821216886_1_alg».proof.Proof.Spec
import Idealize.ShloMosaic.PureOps.Ideal

set_option maxRecDepth 16384

noncomputable section

namespace Cert.Bridge

open Idealize.ShloMosaic Idealize.ShloMosaic.TcCoe Idealize.SL.Sem

set_option maxHeartbeats 8000000 in
/-- The plain program's result term is the forward pass of its arguments' launch contents. -/
theorem reference_value (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v104 (F := Ideal) m' c
      = Cert.KernelIdeal.Spec.forward (F := Ideal)
          (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
          (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) := by
  unfold Cert.ReferenceIdeal.Value.res_main_v104
  rfl

end Cert.Bridge

end
-- ==== Proof.lean ====
/-
  A layered network of 131000 neurons advances one step: each non-input neuron takes tanh of its bias, its
  recurrent input (weights times last step's values, summed per target) and its feed-forward input (weights times
  the previous level's new values, summed per target). The kernel program does every edge product and every
  tanh-of-sum in its own launched region, eleven in all, and keeps the gathers and per-target sums on the host;
  the plain program does everything on the host.

  Frames. The two kernel programs' frames are the generated ones; the plain program's is its generated run with
  the result dropped. The idealization rewrote nothing, so there is nothing to preserve.

  Values at the ideal instance. The kernel program's result buffer, read back through its run, is the forward
  pass of the launch contents of the arguments (Proof/Chain.lean, over each region's whole-array closed form,
  Proof/Region0.lean to Region10.lean, and the run with the result buffer named, Proof/KernelRun.lean); the plain
  program's result term is the same function of its arguments (Proof/RefBridge.lean). The two differ only in
  three ways that do not change a value on the extended reals: the order of the two factors of each edge product
  (multiplication commutes), which tanh is called (one function), and the zero padding of the recurrent stream
  to a whole number of blocks (cut away before it is summed). No step needs the inputs to be finite.
-/
import proofs.«428625_j39238821216886_1_alg».proof.Defs
import proofs.«428625_j39238821216886_1_alg».proof.Proof.Gen.Kernel
import proofs.«428625_j39238821216886_1_alg».proof.Proof.Gen.Kernel.Skeleton
import proofs.«428625_j39238821216886_1_alg».proof.Proof.Gen.Kernel.Launch
import proofs.«428625_j39238821216886_1_alg».proof.Proof.Gen.Kernel.Points
import proofs.«428625_j39238821216886_1_alg».proof.Proof.Gen.Kernel.Frame
import proofs.«428625_j39238821216886_1_alg».proof.Proof.Gen.KernelIdeal
import proofs.«428625_j39238821216886_1_alg».proof.Proof.Gen.KernelIdeal.Skeleton
import proofs.«428625_j39238821216886_1_alg».proof.Proof.Gen.KernelIdeal.Launch
import proofs.«428625_j39238821216886_1_alg».proof.Proof.Gen.KernelIdeal.Points
import proofs.«428625_j39238821216886_1_alg».proof.Proof.Gen.KernelIdeal.Frame
import proofs.«428625_j39238821216886_1_alg».proof.Proof.Gen.ReferenceIdeal
import proofs.«428625_j39238821216886_1_alg».proof.Proof.Gen.ReferenceIdeal.Run
import proofs.«428625_j39238821216886_1_alg».proof.Proof.Gen.Pre_finite_inputs
import proofs.«428625_j39238821216886_1_alg».proof.Proof.KernelRun
import proofs.«428625_j39238821216886_1_alg».proof.Proof.Chain
import proofs.«428625_j39238821216886_1_alg».proof.Proof.RefBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the forward pass of the (agreeing) arguments in their result buffers. -/
theorem algebraic : Cert.algebraic_KernelIdeal_ReferenceIdeal := by
  intro m ρ m' ρ' _ hagree
  refine ⟨fun c => Cert.KernelIdeal.Spec.forward (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono
      (fun r h c => ⟨(h c).1.trans (Cert.KernelIdeal.Chain.result_value m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20⟩ := hagree c
    rw [Cert.Bridge.reference_value m' c, e0, e1, e2, e3, e4, e5, e6, e7, e8, e9, e10, e11, e12, e13, e14, e15, e16, e17, e18, e19, e20]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
